-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x256 .f32) (main_arg1 : IVec S2x800000 32) (main_arg2 : FVec F S800000 .f32) (main_arg3 : FVec F S256x64 .f32) (main_arg4 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x256 : Shape := ⟨2, ![5000, 256]⟩
abbrev S5000x1 : Shape := ⟨2, ![5000, 1]⟩
abbrev S5000x64 : Shape := ⟨2, ![5000, 64]⟩
abbrev S800000x64 : Shape := ⟨2, ![800000, 64]⟩
abbrev S25000x128 : Shape := ⟨2, ![25000, 128]⟩
abbrev S128 : Shape := ⟨1, ![128]⟩
abbrev S1x128 : Shape := ⟨2, ![1, 128]⟩
abbrev S5000x128 : Shape := ⟨2, ![5000, 128]⟩

abbrev nBuf : Space → Nat
  | .hbm => 71
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S800000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S800000, .f32⟩
  | .hbm, ⟨44, _⟩ => ⟨S50000, .f32⟩
  | .hbm, ⟨45, _⟩ => ⟨S50000x1, .f32⟩
  | .hbm, ⟨46, _⟩ => ⟨S50000x64, .bf16⟩
  | .hbm, ⟨47, _⟩ => ⟨S50000x64, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .bf16⟩
  | .hbm, ⟨57, _⟩ => ⟨S800000x64, .f32⟩
  | .hbm, ⟨58, _⟩ => ⟨S800000x1, .f32⟩
  | .hbm, ⟨59, _⟩ => ⟨S800000x64, .f32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S25000x128, .f32⟩
  | .hbm, ⟨66, _⟩ => ⟨S25000x128, .f32⟩
  | .hbm, ⟨67, _⟩ => ⟨S128, .f32⟩
  | .hbm, ⟨68, _⟩ => ⟨S1x128, .f32⟩
  | .hbm, ⟨69, _⟩ => ⟨S25000x128, .f32⟩
  | .hbm, ⟨70, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000x64_S25000x128 : S50000x64.ShapeCasts S25000x128
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S25000x128_S50000x64 : S25000x128.ShapeCasts S50000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S25000x128.size a
  hwx1_3 : ∀ i : grid1.Coords, EltTy.bits .f32 = 32 ∨ (Rect.block (s := S25000x128) S5000x128.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x64, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The graph convolution both programs compute, as ONE function of the five argument arrays, index by index over the
  extended reals: node features x : [50000, 256], edges ei : [2, 800000] (row 0 the sources, row 1 the targets, 32-bit
  words read signed), edge weights ew : [800000], the weight matrix wt : [256, 64] and the bias b : [64].

    deg n     = (sum of ew e over the edges e whose target word is n) + 1          (the self-loop's weight)
    dinv n    = rsqrt (deg n) where deg n > 0, else 0
    norm e    = dinv (src e) * ew e * dinv (tgt e)      (src, tgt: the words wrapped once if negative, then clamped)
    h n q     = sum over k of x n k * wt k q
    agg n q   = sum over the edges e whose target word is n of h (src e) q * norm e
    out n q   = max (agg n q + h n q * (dinv n * dinv n) + b q) 0

  A scatter drops an update whose target word is outside [0, 50000) (no clamp, no wrap); a gather wraps a negative
  word by 50000 once and clamps into [0, 49999]: both programs do both, on the same words.
-/
import Idealize.ShloMosaic.PureOps.Ideal
import Idealize.ShloMosaic.Lib.ValueIdx

noncomputable section

namespace Cert.Gcn

open Idealize.ShloMosaic Idealize.ShloMosaic.ValueIdx

abbrev SX : Shape := ⟨2, ![50000, 256]⟩
abbrev SE : Shape := ⟨2, ![2, 800000]⟩
abbrev SEw : Shape := ⟨1, ![800000]⟩
abbrev SWt : Shape := ⟨2, ![256, 64]⟩
abbrev SB : Shape := ⟨1, ![64]⟩
abbrev SO : Shape := ⟨2, ![50000, 64]⟩

/-- The literal +0.0 and the literal 1.0 as the extended reals they denote. -/
abbrev zero : EReal := FloatOps.ofBits (F := Ideal) .f32 0x00000000#32
abbrev one : EReal := FloatOps.ofBits (F := Ideal) .f32 0x3F800000#32

/-- jnp's index normalization before a gather: a negative word is moved up by the extent once. -/
def wrapIdx (i : BitVec 32) : BitVec 32 := Scalar.select (IntOp.cmpi .slt i 0#32) (IntOp.addi i 50000#32) i

/-- A gather's start index: the word read signed, clamped into [0, 49999]. -/
def clampIdx (i : BitVec 32) : Fin 50000 := ⟨min i.toInt.toNat (50000 - 1), by omega⟩

/-- The inverse square root of a degree, 0 where the degree is not positive. -/
def dinvOf (d : EReal) : EReal :=
  Scalar.select (FloatOps.cmpf (F := Ideal) (φ := .f32) .ogt d zero) (FloatOps.hostUnary (F := Ideal) (φ := .f32) .rsqrt d) zero

section
variable (x : SX.Idx → EReal) (ei : IVec SE 32) (ew : SEw.Idx → EReal) (wt : SWt.Idx → EReal) (b : SB.Idx → EReal)

/-- An edge's source and target words. -/
def src (e : Fin 800000) : BitVec 32 := ei (ix2 (0 : Fin 2) e)
def tgt (e : Fin 800000) : BitVec 32 := ei (ix2 (1 : Fin 2) e)

/-- A node's degree: the weights of the edges into it, and the self-loop's 1. -/
def deg (n : Fin 50000) : EReal :=
  (∑ e : Fin 800000, if (tgt ei e).toInt = (n.val : ℤ) then ew (ix1 e) else 0) + one

def dinv (n : Fin 50000) : EReal := dinvOf (deg ei ew n)

/-- An edge's symmetric normalization. -/
def norm (e : Fin 800000) : EReal :=
  dinv ei ew (clampIdx (wrapIdx (src ei e))) * ew (ix1 e) * dinv ei ew (clampIdx (wrapIdx (tgt ei e)))

/-- The transformed features x · wt. -/
def h (n : Fin 50000) (q : Fin 64) : EReal := ∑ k : Fin 256, x (ix2 n k) * wt (ix2 k q)

/-- The messages summed into node n. -/
def agg (n : Fin 50000) (q : Fin 64) : EReal :=
  ∑ e : Fin 800000, if (tgt ei e).toInt = (n.val : ℤ) then h x wt (clampIdx (wrapIdx (src ei e))) q * norm ei ew e else 0

/-- The layer's output at node n, channel q. -/
def out (n : Fin 50000) (q : Fin 64) : EReal :=
  max (agg x ei ew wt n q + h x wt n q * (dinv ei ew n * dinv ei ew n) + b (ix1 q)) 0

/-- The whole result array. -/
def G : SO.Idx → EReal := fun i => out x ei ew wt b ⟨(i 0).val, idx2_lt0 i⟩ ⟨(i 1).val, idx2_lt1 i⟩

theorem G_apply (n : Fin 50000) (q : Fin 64) : G x ei ew wt b (ix2 n q) = out x ei ew wt b n q := rfl

end

/-- The literal +0.0 denotes 0. -/
theorem zero_eq : zero = 0 := by
  show Ideal.ofBits .f32 0x00000000#32 = 0
  simp [Ideal.ofBits, Ideal.ieee]

/-- The literal 1.0 denotes 1. -/
theorem one_eq : one = 1 := by
  show Ideal.ofBits .f32 0x3F800000#32 = 1
  simp [Ideal.ofBits, Ideal.ieee, -EReal.coe_mul]; norm_num

end Cert.Gcn

end
-- ==== Proof.LibScatterGather.lean ====
/-
  One index per row: the scatter-add and the gather that a segment sum and an indexed read of a vector or of the
  rows of a matrix lower to, with the indices held as an M x 1 integer array, each read at an index.

  The scatter-add of updates into an operand adds to operand element n (or to element (n, c) of a matrix) the
  updates of exactly those rows e whose index, read as a signed integer, is n; an index outside the operand drops its
  row. The gather reads the operand at the row's index, read signed and clamped into the operand's range.
-/
import Idealize.ShloMosaic.PureOps.Ideal
import Idealize.ShloMosaic.Lib.ValueIdx
import Idealize.ShloMosaic.Lib.ValueIdxRank1
import Mathlib.Algebra.BigOperators.Group.Finset.Basic
import Mathlib.Algebra.BigOperators.Group.Finset.Piecewise

noncomputable section

open scoped BigOperators

namespace Cert.LibScatterGather

open Idealize.ShloMosaic Idealize.ShloMosaic.ValueIdx

/-! ## The four dimension records -/

/-- Scatter into a vector of length N from M update scalars, one index per update: no window axis, the operand's one
    axis inserted and addressed by the index, the indices an M x 1 array whose second axis holds the index. -/
abbrev vecScatterDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Scatter into the rows of an N x C matrix from M update rows of length C, one row index per update: the updates'
    second axis is the window, the operand's first axis is inserted and addressed by the index. -/
abbrev rowScatterDims (N C M : ℕ) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Gather M scalars out of a vector of length N, one index per result element: slices of size one, the operand's one
    axis collapsed and addressed by the index. -/
abbrev vecGatherDims (N M : ℕ) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Gather M rows out of an N x C matrix, one row index per result row: slices of one whole row, the operand's first
    axis collapsed and addressed by the index, the result's second axis the offset along the row. -/
abbrev rowGatherDims (N C M : ℕ) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-! ## The gathers read at an index -/

section Gather
variable {α : Type}

/-- The vector gather at e: the operand at the index of row e, read signed and clamped into [0, N - 1]. -/
theorem gather_vec_apply {N M w : ℕ} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The row gather at (e, c): column c of the operand's row at the index of row e, read signed and clamped into
    [0, N - 1]. -/
theorem gather_rows_apply {N C M w : ℕ} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N C M wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    -- the row axis: collapsed, addressed by the index
    show (rowGatherDims N C M wf).start (ix2 e c) idx 0 + (rowGatherDims N C M wf).batchCoord (ix2 e c) 0
      + (rowGatherDims N C M wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C M wf).startIndexMap from List.mem_singleton.mpr rfl)]
    have hsi : (rowGatherDims N C M wf).siIdx (ix2 e c) ⟨List.idxOf (0 : Fin 2) (rowGatherDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: not addressed by the index, the offset along the row
    show (rowGatherDims N C M wf).start (ix2 e c) idx 1 + (rowGatherDims N C M wf).batchCoord (ix2 e c) 1
      + (rowGatherDims N C M wf).offCoord (ix2 e c) 1 = c.val
    have hs : (rowGatherDims N C M wf).start (ix2 e c) idx 1 = 0 := by
      unfold GatherDims.start
      rw [dif_neg (show (1 : Fin 2) ∉ [(0 : Fin 2)] by decide)]
    have ho : (rowGatherDims N C M wf).offCoord (ix2 e c) 1 = c.val := by
      unfold GatherDims.offCoord
      rw [dif_pos ((GatherDims.mem_sKept _ _).mpr ⟨show (1 : Fin 2) ∉ [(0 : Fin 2)] by decide, List.not_mem_nil⟩)]
      rfl
    rw [hs, GatherDims.batchCoord_eq_zero _ _ _ List.not_mem_nil, ho, Nat.zero_add]

end Gather

/-! ## The scatter-adds read at an index -/

section Scatter

/-- An axis on a list is not among the axes the list leaves. -/
theorem not_mem_kept_of_mem {s : Shape} {axes : List (Fin s.rank)} {a : Fin s.rank} (ha : a ∈ axes) :
    a ∉ s.kept axes := by
  intro h
  unfold Shape.kept at h
  exact of_decide_eq_true (List.mem_filter.mp h).2 ha

/-- An axis off a list is among the axes the list leaves. -/
theorem mem_kept_of_not_mem {s : Shape} {axes : List (Fin s.rank)} {a : Fin s.rank} (ha : a ∉ axes) :
    a ∈ s.kept axes := by
  unfold Shape.kept
  exact List.mem_filter.mpr ⟨List.mem_finRange a, decide_eq_true ha⟩

/-- In the vector scatter, update j starts at its row's index, read signed. -/
theorem vecScatter_start {N M w : ℕ} (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (vecScatterDims N M wf).start j idx 0 = (idx (ix2 (j 0) (0 : Fin 1))).toInt := by
  unfold ScatterDims.start
  rw [dif_pos (show (0 : Fin 1) ∈ (vecScatterDims N M wf).scatterDimsToOperandDims from List.mem_singleton.mpr rfl)]
  have hsi : (vecScatterDims N M wf).siIdx j ⟨List.idxOf (0 : Fin 1) (vecScatterDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- In the vector scatter there is no window: the window coordinate is zero. -/
theorem vecScatter_window {N M : ℕ} (wf : ScatterDims.WF ⟨1, ![N]⟩ ⟨2, ![M, 1]⟩ ⟨1, ![M]⟩ [] [0] [0] 1)
    (j : (⟨1, ![M]⟩ : Shape).Idx) : (vecScatterDims N M wf).window j 0 = 0 := by
  unfold ScatterDims.window
  rw [dif_neg (not_mem_kept_of_mem (List.mem_singleton.mpr rfl))]

/-- In the vector scatter, update j lands on operand element i exactly when its row's index, read signed, is i. -/
theorem vecScatter_resultIdx?_eq_some_iff {N M w : ℕ} (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (vecScatterDims N M wf).resultIdx? j idx = some i ↔ (idx (ix2 (j 0) (0 : Fin 1))).toInt = ((i 0).val : ℤ) := by
  have hi : (i 0).val < N := (i 0).isLt
  unfold ScatterDims.resultIdx?
  constructor
  · intro h
    split at h
    · rename_i hh
      have h0 := congrArg Fin.val (congrFun (Option.some.inj h) 0)
      have hnn := (hh 0).1
      simp only [vecScatter_start, vecScatter_window] at h0 hnn
      omega
    · exact absurd h (by simp)
  · intro h
    have hh : ∀ a, 0 ≤ (vecScatterDims N M wf).start j idx a + (vecScatterDims N M wf).window j a
        ∧ (vecScatterDims N M wf).start j idx a + (vecScatterDims N M wf).window j a
          < ((⟨1, ![N]⟩ : Shape).size a : ℤ) := by
      intro a
      obtain rfl : a = 0 := Subsingleton.elim _ _
      rw [vecScatter_start, vecScatter_window, h]
      show (0 : ℤ) ≤ ((i 0).val : ℤ) + ((0 : ℕ) : ℤ) ∧ ((i 0).val : ℤ) + ((0 : ℕ) : ℤ) < (N : ℤ)
      omega
    rw [dif_pos hh]
    congr 1
    funext a
    obtain rfl : a = 0 := Subsingleton.elim _ _
    refine Fin.ext ?_
    show ((vecScatterDims N M wf).start j idx 0 + (vecScatterDims N M wf).window j 0).toNat = (i 0).val
    rw [vecScatter_start, vecScatter_window, h]
    omega

/-- THE VECTOR SCATTER-ADD AT n: the operand's element plus the updates of the rows whose index, read signed, is n. -/
theorem scatterAdd_vec_apply {N M w : ℕ} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (vecScatterDims N M wf) x idx upd (ix1 n)
      = x (ix1 n) + ∑ e : Fin M, if (idx (ix2 e (0 : Fin 1))).toInt = (n.val : ℤ) then upd (ix1 e) else 0 := by
  unfold Ideal.hostScatterAdd
  congr 1
  rw [Finset.sum_filter, ← Equiv.sum_comp (idxEquiv1 (n := M)).symm]
  refine Finset.sum_congr rfl fun e _ => ?_
  exact if_congr (vecScatter_resultIdx?_eq_some_iff wf (ix1 e) idx (ix1 n)) rfl rfl

/-- In the row scatter, update j starts, on the row axis, at its row's index, read signed. -/
theorem rowScatter_start_row {N C M w : ℕ} (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowScatterDims N C M wf).start j idx 0 = (idx (ix2 (j 0) (0 : Fin 1))).toInt := by
  unfold ScatterDims.start
  rw [dif_pos (show (0 : Fin 2) ∈ (rowScatterDims N C M wf).scatterDimsToOperandDims from List.mem_singleton.mpr rfl)]
  have hsi : (rowScatterDims N C M wf).siIdx j ⟨List.idxOf (0 : Fin 2) (rowScatterDims N C M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- In the row scatter the column axis is not addressed by the index: its start is zero. -/
theorem rowScatter_start_col {N C M w : ℕ} (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowScatterDims N C M wf).start j idx 1 = 0 := by
  unfold ScatterDims.start
  rw [dif_neg (show (1 : Fin 2) ∉ [(0 : Fin 2)] by decide)]

/-- In the row scatter the row axis is inserted: its window coordinate is zero. -/
theorem rowScatter_window_row {N C M : ℕ} (wf : ScatterDims.WF ⟨2, ![N, C]⟩ ⟨2, ![M, 1]⟩ ⟨2, ![M, C]⟩ [1] [0] [0] 1)
    (j : (⟨2, ![M, C]⟩ : Shape).Idx) : (rowScatterDims N C M wf).window j 0 = 0 := by
  unfold ScatterDims.window
  rw [dif_neg (not_mem_kept_of_mem (List.mem_singleton.mpr rfl))]

/-- In the row scatter the window runs along the column axis: its window coordinate is the update's column. -/
theorem rowScatter_window_col {N C M : ℕ} (wf : ScatterDims.WF ⟨2, ![N, C]⟩ ⟨2, ![M, 1]⟩ ⟨2, ![M, C]⟩ [1] [0] [0] 1)
    (j : (⟨2, ![M, C]⟩ : Shape).Idx) : (rowScatterDims N C M wf).window j 1 = (j 1).val := by
  unfold ScatterDims.window
  rw [dif_pos (mem_kept_of_not_mem (show (1 : Fin 2) ∉ [(0 : Fin 2)] by decide))]
  rfl

/-- In the row scatter, update j lands on operand element i exactly when its row's index, read signed, is i's row
    and its column is i's column. -/
theorem rowScatter_resultIdx?_eq_some_iff {N C M w : ℕ}
    (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowScatterDims N C M wf).resultIdx? j idx = some i
      ↔ (idx (ix2 (j 0) (0 : Fin 1))).toInt = ((i 0).val : ℤ) ∧ (j 1).val = (i 1).val := by
  have hi0 : (i 0).val < N := (i 0).isLt
  have hi1 : (i 1).val < C := (i 1).isLt
  have hj1 : (j 1).val < C := (j 1).isLt
  unfold ScatterDims.resultIdx?
  constructor
  · intro h
    split at h
    · rename_i hh
      have he := Option.some.inj h
      have h0 := congrArg Fin.val (congrFun he 0)
      have h1 := congrArg Fin.val (congrFun he 1)
      have hnn := (hh 0).1
      simp only [rowScatter_start_row, rowScatter_window_row, rowScatter_start_col, rowScatter_window_col] at h0 h1 hnn
      omega
    · exact absurd h (by simp)
  · rintro ⟨h, hc⟩
    have hh : ∀ a, 0 ≤ (rowScatterDims N C M wf).start j idx a + (rowScatterDims N C M wf).window j a
        ∧ (rowScatterDims N C M wf).start j idx a + (rowScatterDims N C M wf).window j a
          < ((⟨2, ![N, C]⟩ : Shape).size a : ℤ) := by
      intro a
      match a with
      | ⟨0, _⟩ =>
        show 0 ≤ (rowScatterDims N C M wf).start j idx 0 + (rowScatterDims N C M wf).window j 0
          ∧ (rowScatterDims N C M wf).start j idx 0 + (rowScatterDims N C M wf).window j 0 < (N : ℤ)
        rw [rowScatter_start_row, rowScatter_window_row, h]
        omega
      | ⟨1, _⟩ =>
        show 0 ≤ (rowScatterDims N C M wf).start j idx 1 + (rowScatterDims N C M wf).window j 1
          ∧ (rowScatterDims N C M wf).start j idx 1 + (rowScatterDims N C M wf).window j 1 < (C : ℤ)
        rw [rowScatter_start_col, rowScatter_window_col]
        omega
    rw [dif_pos hh]
    congr 1
    funext a
    refine Fin.ext ?_
    match a with
    | ⟨0, _⟩ =>
      show ((rowScatterDims N C M wf).start j idx 0 + (rowScatterDims N C M wf).window j 0).toNat = (i 0).val
      rw [rowScatter_start_row, rowScatter_window_row, h]
      omega
    | ⟨1, _⟩ =>
      show ((rowScatterDims N C M wf).start j idx 1 + (rowScatterDims N C M wf).window j 1).toNat = (i 1).val
      rw [rowScatter_start_col, rowScatter_window_col]
      omega

/-- THE ROW SCATTER-ADD AT (n, c): the operand's element plus column c of the update rows whose index, read signed,
    is n. -/
theorem scatterAdd_rows_apply {N C M w : ℕ} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (c : Fin C) :
    Ideal.hostScatterAdd (rowScatterDims N C M wf) x idx upd (ix2 n c)
      = x (ix2 n c) + ∑ e : Fin M, if (idx (ix2 e (0 : Fin 1))).toInt = (n.val : ℤ) then upd (ix2 e c) else 0 := by
  unfold Ideal.hostScatterAdd
  congr 1
  rw [Finset.sum_filter, sum_idx2]
  refine Finset.sum_congr rfl fun e _ => ?_
  by_cases h : (idx (ix2 e (0 : Fin 1))).toInt = (n.val : ℤ)
  · -- row e is sent to n: of its columns exactly column c lands on (n, c)
    rw [if_pos h]
    have hb : ∀ b : Fin C,
        (if (rowScatterDims N C M wf).resultIdx? (ix2 e b) idx = some (ix2 n c) then upd (ix2 e b) else 0)
          = if b = c then upd (ix2 e b) else 0 := by
      intro b
      refine if_congr ?_ rfl rfl
      rw [rowScatter_resultIdx?_eq_some_iff]
      exact ⟨fun hh => Fin.ext hh.2, fun hbc => ⟨h, congrArg Fin.val hbc⟩⟩
    rw [Finset.sum_congr rfl (fun b _ => hb b), Finset.sum_ite_eq', if_pos (Finset.mem_univ c)]
  · -- row e is sent elsewhere: none of its columns lands on (n, c)
    rw [if_neg h]
    refine Finset.sum_eq_zero fun b _ => ?_
    rw [if_neg]
    intro hr
    exact h ((rowScatter_resultIdx?_eq_some_iff wf (ix2 e b) idx (ix2 n c)).mp hr).1

end Scatter

end Cert.LibScatterGather

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KernelRegion0.lean ====
/-
  Region 0: the row-block matrix product, and its two outputs as whole-array functions of what the region finds.

  Each of the ten grid points takes 5000 consecutive rows of x : [50000, 256], the whole of W : [256, 64] and the
  same rows of a column d : [50000, 1]; it writes those rows of h = x W (every entry the plain sum over the 256
  contracted positions) to one output and those rows of h scaled row by row by d to the other. The row blocks tile
  the outputs, so after the region each output is one function of the entry contents, index by index.
-/
import proofs.«418429_j49297634624086_3_alg».proof.Proof.Gen.KernelIdeal.Frame
import proofs.«418429_j49297634624086_3_alg».proof.Proof.LibColumn
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx Cert.KernelIdeal Cert.KernelIdeal.Gen
open Idealize.ShloMosaic.Pipeline (Dat)
open scoped BigOperators

/-! ## The block product at an index -/

/-- The contraction's left index keeps the output's row. -/
theorem lhs_axis0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- The contraction's left index takes the contracted position as its column. -/
theorem lhs_axis1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The contraction's right index takes the contracted position as its row. -/
theorem rhs_axis0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- The contraction's right index keeps the output's column. -/
theorem rhs_axis1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The product of a 5000-row block with W, accumulated from zero: entry (p, q) is the sum over the 256 contracted
    positions of the block's row p against W's column q (the narrowing of the operands changes no ideal value). -/
theorem blockProduct_apply (x : Vec Ideal S5000x256 .f32) (w : Vec Ideal S256x64 .f32) (p : Fin 5000) (q : Fin 64) :
    k0_pay1 (F := Ideal) x w (ix2 p q) = ∑ k : Fin 256, x (ix2 p k) * w (ix2 k q) := by
  unfold k0_pay1
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]
  rfl

/-! ## The two stored payloads at an index -/

/-- What the first output's store holds: the block product (its narrowing changes no ideal value). -/
theorem storedProduct_apply (x : Vec Ideal S5000x256 .f32) (w : Vec Ideal S256x64 .f32) (p : Fin 5000) (q : Fin 64) :
    k0_pay2 (F := Ideal) x w (ix2 p q) = ∑ k : Fin 256, x (ix2 p k) * w (ix2 k q) := by
  unfold k0_pay2
  exact blockProduct_apply x w p q

/-- What the second output's store holds: the block product, row p scaled by the column's entry in row p. -/
theorem storedScaled_apply (x : Vec Ideal S5000x256 .f32) (w : Vec Ideal S256x64 .f32) (d : Vec Ideal S5000x1 .f32)
    (p : Fin 5000) (q : Fin 64) :
    k0_pay3 (F := Ideal) x w d (ix2 p q) = (∑ k : Fin 256, x (ix2 p k) * w (ix2 k q)) * d (ix2 p (0 : Fin 1)) := by
  unfold k0_pay3
  show k0_pay1 (F := Ideal) x w (ix2 p q) * broadcastTo S5000x64 (shapeCast S5000x1 d shapeCasts_S5000x1_S5000x1) broadcasts_S5000x1_S5000x64 (ix2 p q) = _
  rw [blockProduct_apply, Cert.LibColumn.broadcastTo_a1_ab_apply, shapeCast_self]

/-- The same two facts at a block index given whole, its coordinates read off it. -/
theorem storedProduct_at (x : Vec Ideal S5000x256 .f32) (w : Vec Ideal S256x64 .f32) (j : S5000x64.Idx) :
    k0_pay2 (F := Ideal) x w j = ∑ k : Fin 256, x (ix2 (j 0) k) * w (ix2 k (j 1)) := by
  obtain ⟨p, q, rfl⟩ : ∃ (p : Fin 5000) (q : Fin 64), j = ix2 p q := ⟨j 0, j 1, eq_ix2 j⟩
  exact storedProduct_apply x w p q
theorem storedScaled_at (x : Vec Ideal S5000x256 .f32) (w : Vec Ideal S256x64 .f32) (d : Vec Ideal S5000x1 .f32) (j : S5000x64.Idx) :
    k0_pay3 (F := Ideal) x w d j = (∑ k : Fin 256, x (ix2 (j 0) k) * w (ix2 k (j 1))) * d (ix2 (j 0) (0 : Fin 1)) := by
  obtain ⟨p, q, rfl⟩ : ∃ (p : Fin 5000) (q : Fin 64), j = ix2 p q := ⟨j 0, j 1, eq_ix2 j⟩
  exact storedScaled_apply x w d p q

/-! ## The whole arrays -/

/-- h = x W: entry (n, q) is the sum over the 256 contracted positions of x's row n against W's column q. -/
abbrev product (x : S50000x256.Idx → EReal) (w : S256x64.Idx → EReal) : S50000x64.Idx → EReal :=
  fun i => ∑ k : Fin 256, x (ix2 (i 0) k) * w (ix2 k (i 1))

/-- h with row n scaled by the column's entry d (n, 0). -/
abbrev scaledProduct (x : S50000x256.Idx → EReal) (w : S256x64.Idx → EReal) (d : S50000x1.Idx → EReal) : S50000x64.Idx → EReal :=
  fun i => (∑ k : Fin 256, x (ix2 (i 0) k) * w (ix2 k (i 1))) * d (ix2 (i 0) (0 : Fin 1))

/-! ## The blocks -/

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block indices over the grid: at point t the row windows (x, the column, the two outputs) are at row block t,
    column block 0, and W's window stays at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- x's block at point t is rows 5000 t … 5000 t + 4999 of x. -/
theorem xBlock_apply (c : Dev nD) (t : Fin cfg0.N) (y : S5000x256.Idx) (i : S50000x256.Idx)
    (h0 : (i 0).val = t.val * 5000 + (y 0).val) (h1 : (i 1).val = (y 1).val) :
    (iblk0 V c 0 t : Vec Ideal S5000x256 .f32) y = (V c main_arg0 : S50000x256.Idx → EReal) i := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; omega
  | ⟨1, _⟩ => show win0_0.index t (1 : Fin 2) * 256 + 1 * (y 1).val = (i 1).val; omega

/-- W's block at every point is W. -/
theorem wBlock_apply (c : Dev nD) (t : Fin cfg0.N) (y : S256x64.Idx) :
    (iblk0 V c 1 t : Vec Ideal S256x64 .f32) y = (V c main_arg3 : S256x64.Idx → EReal) y := by
  obtain ⟨-, -, e2, e3, -⟩ := index_facts t
  unfold iblk0
  rw [View.read_apply]
  show V c main_arg3 _ = V c main_arg3 _
  congr 1
  funext a
  apply Fin.ext
  match a with
  | ⟨0, _⟩ => show win0_1.index t (0 : Fin 2) * 256 + 1 * (y 0).val = (y 0).val; omega
  | ⟨1, _⟩ => show win0_1.index t (1 : Fin 2) * 64 + 1 * (y 1).val = (y 1).val; omega

/-- The column's block at point t is its rows 5000 t … 5000 t + 4999. -/
theorem dBlock_apply (c : Dev nD) (t : Fin cfg0.N) (y : S5000x1.Idx) (i : S50000x1.Idx)
    (h0 : (i 0).val = t.val * 5000 + (y 0).val) (h1 : (i 1).val = (y 1).val) :
    (iblk0 V c 2 t : Vec Ideal S5000x1 .f32) y = (V c main_v30 : S50000x1.Idx → EReal) i := by
  obtain ⟨-, -, -, -, e4, e5, -⟩ := index_facts t
  unfold iblk0
  rw [View.read_apply]
  show V c main_v30 _ = V c main_v30 _
  congr 1
  funext a
  apply Fin.ext
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-! ## What each point writes back -/

/-- Point t writes to the first output the rows 5000 t … 5000 t + 4999 of x W. -/
theorem flushedProduct_eq (c : Dev nD) (t : Fin cfg0.N) :
    (dat0 (F := Ideal) V c).flushed 3 t
      = ((cfg0.win 3).blk t).view.read (Elt Ideal) (product (V c main_arg0) (V c main_arg3)) := by
  show (cfg0.win 3).cut (grid0.coords t) ((dat0 (F := Ideal) V c).after 3 t) = _
  rw [after0_3]
  unfold out0_3
  rw [View.canon_unit_zero hz]
  simp only [View.ld_unit_zero (S := S5000x256) hz, View.ld_unit_zero (S := S256x64) hz]
  obtain ⟨-, -, -, -, -, -, e6, e7, -⟩ := index_facts t
  funext j
  refine (storedProduct_at _ _ _).trans ?_
  show _ = product (V c main_arg0) (V c main_arg3) (((cfg0.win 3).blk t).view.emb j)
  have r0 : ((((cfg0.win 3).blk t).view.emb j) 0).val = win0_3.index t (0 : Fin 2) * 5000 + 1 * (j 0).val := rfl
  have r1 : ((((cfg0.win 3).blk t).view.emb j) 1).val = win0_3.index t (1 : Fin 2) * 64 + 1 * (j 1).val := rfl
  refine Finset.sum_congr rfl fun k _ => ?_
  refine congrArg₂ (· * ·) (xBlock_apply V c t _ _ ?_ rfl) ((wBlock_apply V c t _).trans (congrArg _ ?_))
  · show ((((cfg0.win 3).blk t).view.emb j) 0).val = t.val * 5000 + (j 0).val
    omega
  · funext a
    apply Fin.ext
    match a with
    | ⟨0, _⟩ => rfl
    | ⟨1, _⟩ => show (j 1).val = ((((cfg0.win 3).blk t).view.emb j) 1).val; omega

/-- Point t writes to the second output the same rows of x W, each scaled by the column's entry in its row. -/
theorem flushedScaled_eq (c : Dev nD) (t : Fin cfg0.N) :
    (dat0 (F := Ideal) V c).flushed 4 t
      = ((cfg0.win 4).blk t).view.read (Elt Ideal) (scaledProduct (V c main_arg0) (V c main_arg3) (V c main_v30)) := by
  show (cfg0.win 4).cut (grid0.coords t) ((dat0 (F := Ideal) V c).after 4 t) = _
  rw [after0_4]
  unfold out0_4
  rw [View.canon_unit_zero hz]
  simp only [View.ld_unit_zero (S := S5000x256) hz, View.ld_unit_zero (S := S256x64) hz, View.ld_unit_zero (S := S5000x1) hz]
  obtain ⟨-, -, -, -, -, -, -, -, e8, e9⟩ := index_facts t
  funext j
  refine (storedScaled_at _ _ _ _).trans ?_
  show _ = scaledProduct (V c main_arg0) (V c main_arg3) (V c main_v30) (((cfg0.win 4).blk t).view.emb j)
  have r0 : ((((cfg0.win 4).blk t).view.emb j) 0).val = win0_4.index t (0 : Fin 2) * 5000 + 1 * (j 0).val := rfl
  have r1 : ((((cfg0.win 4).blk t).view.emb j) 1).val = win0_4.index t (1 : Fin 2) * 64 + 1 * (j 1).val := rfl
  refine congrArg₂ (· * ·) (Finset.sum_congr rfl fun k _ => ?_) (dBlock_apply V c t _ _ ?_ rfl)
  · refine congrArg₂ (· * ·) (xBlock_apply V c t _ _ ?_ rfl) ((wBlock_apply V c t _).trans (congrArg _ ?_))
    · show ((((cfg0.win 4).blk t).view.emb j) 0).val = t.val * 5000 + (j 0).val
      omega
    · funext a
      apply Fin.ext
      match a with
      | ⟨0, _⟩ => rfl
      | ⟨1, _⟩ => show (j 1).val = ((((cfg0.win 4).blk t).view.emb j) 1).val; omega
  · show ((((cfg0.win 4).blk t).view.emb j) 0).val = t.val * 5000 + (j 0).val
    omega

/-! ## The row blocks tile the outputs -/

/-- An index of the first output is in point t's block iff each coordinate is in the block's range on its axis. -/
theorem mem_rowsProduct (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v31_0).slice (win0_3.rect t)).set ↔ _
  rw [View.set_slice_whole, Rect.mem_set_unit]
  exact Iff.rfl

/-- The same for the second output. -/
theorem mem_rowsScaled (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v31_1).slice (win0_4.rect t)).set ↔ _
  rw [View.set_slice_whole, Rect.mem_set_unit]
  exact Iff.rfl

/-- Row n of the first output is in the block of point n / 5000. -/
theorem coverProduct (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7, -⟩ := index_facts t
  refine ⟨t, flush0_3 t, ?_⟩
  rw [mem_rowsProduct]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- Row n of the second output is in the block of point n / 5000. -/
theorem coverScaled (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, e8, e9⟩ := index_facts t
  refine ⟨t, flush0_4 t, ?_⟩
  rw [mem_rowsScaled]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-! ## The outputs after the region -/

/-- After the region the first output is x W of the entry contents. -/
theorem finalProduct (c : Dev nD) :
    (dat0 (F := Ideal) V c).arrAt 3 cfg0.N = product (V c main_arg0) (V c main_arg3) :=
  (dat0 (F := Ideal) V c).arrAt_eq_of_cover 3 (product (V c main_arg0) (V c main_arg3))
    (fun t _ => flushedProduct_eq V c t) coverProduct

/-- After the region the second output is x W scaled row by row by the column. -/
theorem finalScaled (c : Dev nD) :
    (dat0 (F := Ideal) V c).arrAt 4 cfg0.N = scaledProduct (V c main_arg0) (V c main_arg3) (V c main_v30) :=
  (dat0 (F := Ideal) V c).arrAt_eq_of_cover 4 (scaledProduct (V c main_arg0) (V c main_arg3) (V c main_v30))
    (fun t _ => flushedScaled_eq V c t) coverScaled

/-- The first output at (n, q): the sum over the contracted positions of x's row n against W's column q
    (the products are the extended reals', named in full because an array of the entry contents shows its element
    type only after unfolding). -/
theorem h_apply (c : Dev nD) (n : Fin 50000) (q : Fin 64) :
    ((dat0 (F := Ideal) V c).arrAt 3 cfg0.N : S50000x64.Idx → EReal) (ix2 n q)
      = ∑ k : Fin 256, @HMul.hMul EReal EReal EReal _ ((V c main_arg0 : S50000x256.Idx → EReal) (ix2 n k))
          ((V c main_arg3 : S256x64.Idx → EReal) (ix2 k q)) :=
  congrFun (finalProduct V c) (ix2 n q)

/-- The second output at (n, q): that sum times the column's entry in row n. -/
theorem hd_apply (c : Dev nD) (n : Fin 50000) (q : Fin 64) :
    ((dat0 (F := Ideal) V c).arrAt 4 cfg0.N : S50000x64.Idx → EReal) (ix2 n q)
      = @HMul.hMul EReal EReal EReal _
          (∑ k : Fin 256, @HMul.hMul EReal EReal EReal _ ((V c main_arg0 : S50000x256.Idx → EReal) (ix2 n k))
            ((V c main_arg3 : S256x64.Idx → EReal) (ix2 k q)))
          ((V c main_v30 : S50000x1.Idx → EReal) (ix2 n (0 : Fin 1))) :=
  congrFun (finalScaled V c) (ix2 n q)

end Cert.KernelIdeal.Region0

end
-- ==== Proof.KernelRegion1.lean ====
/-
  Region 1: the rectified biased sum. The region is a pointwise computation on a grid of five points. Point t takes
  rows 5000 t … 5000 t + 4999 of two arrays a, s of shape 25000 x 128 and the whole of a row vector r of shape 1 x 128,
  and writes the same rows of the output: out[p, l] = max((a[p, l] + s[p, l]) + r[0, l], 0). The five blocks of rows
  tile the arrays, so after the region the output array is one function of the arrays the region found, index by
  index: biasedRelu a s r. Here: that function; the body's arithmetic on one block read at an index; what a point
  writes back as its block of that function; the cover of the rows by the blocks; the output array after the region,
  whole and read at an index.
-/
import proofs.«418429_j49297634624086_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx Cert.KernelIdeal Cert.KernelIdeal.Gen
open Idealize.ShloMosaic.Pipeline (Dat)

/-- The rectified biased sum of two arrays, index by index: at row p and lane l it is
    max((a[p,l] + s[p,l]) + r[0,l], 0), the row vector r repeated down the rows. -/
def biasedRelu (a s : S25000x128.Idx → EReal) (r : S1x128.Idx → EReal) : S25000x128.Idx → EReal :=
  fun i => max ((a i + s i) + r (ix2 (0 : Fin 1) (i 1 : Fin 128))) 0

theorem biasedRelu_apply (a s : S25000x128.Idx → EReal) (r : S1x128.Idx → EReal) (p : Fin 25000) (l : Fin 128) :
    biasedRelu a s r (ix2 p l) = max ((a (ix2 p l) + s (ix2 p l)) + r (ix2 (0 : Fin 1) l)) 0 := rfl

/-- The body's arithmetic on one block, read at row p and lane l of the block. -/
theorem pay_apply (x0 x1 : Vec Ideal S5000x128 .f32) (x2 : Vec Ideal S1x128 .f32) (p : Fin 5000) (l : Fin 128) :
    k1_pay1 x0 x1 x2 (ix2 p l) = max ((x0 (ix2 p l) + x1 (ix2 p l)) + x2 (ix2 (0 : Fin 1) l)) 0 := by
  unfold k1_pay1
  rw [maximumf_apply, addf_apply, addf_apply, broadcast_apply, broadcastTo_1b_ab_apply, shapeCast_self, shapeCast_self,
    shapeCast_self]
  show max _ (Ideal.ofBits .f32 0x00000000#32) = _
  rw [Ideal.ofBits_zero_f32]

/-- The body's arithmetic on one block as a function of the block's index. -/
theorem pay_eq (x0 x1 : Vec Ideal S5000x128 .f32) (x2 : Vec Ideal S1x128 .f32) :
    k1_pay1 x0 x1 x2 = fun j : S5000x128.Idx => max ((x0 j + x1 j) + x2 (ix2 (0 : Fin 1) (j 1 : Fin 128))) 0 := by
  funext j
  obtain ⟨p, l, rfl⟩ : ∃ (p : Fin 5000) (l : Fin 128), j = ix2 p l := ⟨j 0, j 1, eq_ix2 j⟩
  exact pay_apply x0 x1 x2 p l

variable (V : (c : Dev nD) → (b : Ref sig .tc) → Buf (Elt Ideal) ((c : Thread nD τ).loc b))

/-- The two summand arrays, the row vector and the output array of the region, each at its literal type. -/
abbrev summandA (c : Dev nD) : S25000x128.Idx → EReal := V c main_v46
abbrev summandB (c : Dev nD) : S25000x128.Idx → EReal := V c main_v47
abbrev biasRow (c : Dev nD) : S1x128.Idx → EReal := V c main_v49
abbrev outArr (c : Dev nD) : S25000x128.Idx → EReal := (dat1 (F := Ideal) V c).arrAt 3 cfg1.N

theorem zero_offsets : (![0, 0] : Fin 2 → Nat) = fun _ => 0 := funext fun a => by fin_cases a <;> rfl

/-- The printed index maps over the grid: point t takes block (t, 0) of the two summands and of the output,
    and block (0, 0) of the row vector. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the rectified biased sum of the arrays the region found: each input block
    is its array read through the rows the output's block names, the row vector's block the whole vector. -/
theorem flushed_eq (c : Dev nD) (t : Fin cfg1.N) :
    (dat1 V c).flushed 3 t = ((cfg1.win 3).blk t).view.read (Elt Ideal)
      (biasedRelu (V c main_v46) (V c main_v47) (V c main_v49)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets]
  rw [pay_eq]
  obtain ⟨e00, e01, e10, e11, e20, e21, e30, e31⟩ := block_indices t
  funext j
  show max ((summandA V c (((cfg1.win 0).blk t).view.emb j) + summandB V c (((cfg1.win 1).blk t).view.emb j))
        + biasRow V c (((cfg1.win 2).blk t).view.emb (ix2 (0 : Fin 1) (j 1)))) 0
      = max ((summandA V c (((cfg1.win 3).blk t).view.emb j) + summandB V c (((cfg1.win 3).blk t).view.emb j))
        + biasRow V c (ix2 (0 : Fin 1) ((((cfg1.win 3).blk t).view.emb j) 1))) 0
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb (ix2 (0 : Fin 1) (j 1))
      = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  rw [h0, h1, h2]
  rfl

/-- An index of the output array is in point t's block iff each coordinate is in the block's range on its axis. -/
theorem mem_blk (t : Fin cfg1.N) (i : S25000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v50).slice (win1_3.rect t)).set ↔ _
  rw [View.set_slice_whole, Rect.mem_set_unit]
  exact Iff.rfl

/-- The five blocks of 5000 rows tile the 25000 rows: row r lies in the block of point r / 5000. -/
theorem cover (i : S25000x128.Idx) :
    ∃ t : Fin cfg1.N, (cfg1.win 3).flush t = true ∧ i ∈ ((cfg1.win 3).blk t).view.set := by
  have hi0 : (i 0).val < 25000 := (i 0).isLt
  have hi1 : (i 1).val < 128 := (i 1).isLt
  have hN : cfg1.N = 5 := N_1
  obtain ⟨t, ht⟩ : ∃ t : Fin cfg1.N, t.val = (i 0).val / 5000 := ⟨⟨(i 0).val / 5000, by omega⟩, rfl⟩
  obtain ⟨-, -, -, -, -, -, e30, e31⟩ := block_indices t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region the output array is the rectified biased sum of the arrays the region found. -/
theorem final (c : Dev nD) :
    (dat1 V c).arrAt 3 cfg1.N = biasedRelu (V c main_v46) (V c main_v47) (V c main_v49) :=
  (dat1 V c).arrAt_eq_of_cover 3 _ (fun t _ => flushed_eq V c t) cover

/-- The output array after the region, read at row p and lane l. -/
theorem out_apply (c : Dev nD) (p : Fin 25000) (l : Fin 128) :
    outArr V c (ix2 p l)
      = max ((summandA V c (ix2 p l) + summandB V c (ix2 p l)) + biasRow V c (ix2 (0 : Fin 1) l)) 0 :=
  (congrFun (final V c) (ix2 p l)).trans (biasedRelu_apply _ _ _ p l)

end Cert.KernelIdeal.Region1

end
-- ==== Proof.KernelHost.lean ====
/-
  The kernel program's host operations between its two regions, read at an index.

  The program runs five stretches of host operations around two kernel regions. Each stretch is read here from an
  ARBITRARY valuation of the buffers at its entry: what it leaves in the buffers that later stages read, index by
  index, in the specification's vocabulary (Spec): the source and target words of an edge, a node's degree and its
  inverse square root, an edge's normalization, the column of squared inverse roots the first region scales by, the
  scattered messages laid out two nodes to a row for the second region, and the final re-layout of its result.
-/
import proofs.«418429_j49297634624086_3_alg».proof.Proof.Gen.KernelIdeal.Frame
import proofs.«418429_j49297634624086_3_alg».proof.Proof.Spec
import proofs.«418429_j49297634624086_3_alg».proof.Proof.LibScatterGather
import proofs.«418429_j49297634624086_3_alg».proof.Proof.LibColumn
import proofs.«418429_j49297634624086_3_alg».proof.Proof.KernelRegion0
import proofs.«418429_j49297634624086_3_alg».proof.Proof.KernelRegion1
import Idealize.ShloMosaic.Lib.StableHlo.Run
import Idealize.ShloMosaic.Lib.Pipeline.Value
import Idealize.ShloMosaic.Lib.ValueIdx

set_option maxRecDepth 16384

noncomputable section

namespace Cert.KernelIdeal.HostValue

open Idealize.ShloMosaic Idealize.ShloMosaic.TcCoe Idealize.SL.Sem Idealize.ShloMosaic.ValueIdx Idealize.ShloMosaic.StableHlo
open Cert.KernelIdeal Cert.KernelIdeal.Gen Cert.Gcn Cert.LibScatterGather

/-! ## Layout operations read at an index -/

/-- A scalar broadcast to any shape reads the scalar everywhere. -/
theorem bcastScalar_apply {α : Type} {t : Shape} (h : (⟨0, ![]⟩ : Shape).BroadcastsInDim t ![])
    (v : (⟨0, ![]⟩ : Shape).Idx → α) (j : t.Idx) : broadcastInDim t ![] h v j = v ix0 :=
  broadcastInDim_apply _ h v j ix0 (fun a => a.elim0)

/-- A length-n vector laid out as an n x 1 column reads, at (e, u), the vector at e. -/
theorem bcastCol_apply {α : Type} {n : ℕ} (hn : n ≠ 1) (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) :=
  broadcastInDim_apply _ h v (ix2 e u) (ix1 e) (fun a => match a with
    | ⟨0, _⟩ => by show e.val = if n = 1 then 0 else e.val; rw [if_neg hn])

/-- An n x 1 column repeated across m columns reads, at (e, q), the column at (e, 0). -/
theorem bcastAcross_apply {α : Type} {n m : ℕ} (hn : n ≠ 1) (h : (⟨2, ![n, 1]⟩ : Shape).BroadcastsInDim ⟨2, ![n, m]⟩ ![0, 1])
    (v : (⟨2, ![n, 1]⟩ : Shape).Idx → α) (e : Fin n) (q : Fin m) :
    broadcastInDim ⟨2, ![n, m]⟩ ![0, 1] h v (ix2 e q) = v (ix2 e (0 : Fin 1)) :=
  broadcastInDim_apply _ h v (ix2 e q) (ix2 e (0 : Fin 1)) (fun a => match a with
    | ⟨0, _⟩ => by show e.val = if n = 1 then 0 else e.val; rw [if_neg hn]
    | ⟨1, _⟩ => by show (0 : ℕ) = if (1 : ℕ) = 1 then 0 else q.val; rw [if_pos rfl])

/-- Row r of the 2 x 800000 edge array, cut out as a 1 x 800000 slice and flattened, reads at e the array at (r, e). -/
theorem edgeRow_apply {α : Type} (r : Fin 2) (x : (⟨2, ![2, 800000]⟩ : Shape).Idx → α)
    (hs : (⟨2, ![2, 800000]⟩ : Shape).Slices ![r.val, 0] ⟨2, ![1, 800000]⟩)
    (hc : (⟨2, ![1, 800000]⟩ : Shape).ShapeCasts ⟨1, ![800000]⟩) (e : Fin 800000) :
    shapeCast ⟨1, ![800000]⟩ (extractStridedSlice ⟨2, ![1, 800000]⟩ ![r.val, 0] x hs) hc (ix1 e) = x (ix2 r e) :=
  (shapeCast_apply _ hc (ix1 e) (ix2 (0 : Fin 1) e) (by
    rw [Shape.rowMajor_val_two, Shape.rowMajor_val_one]
    show (0 : ℕ) * 800000 + e.val = e.val
    omega)).trans
  (extractStridedSlice_apply ![r.val, 0] x hs (ix2 (0 : Fin 1) e) (ix2 r e) (fun a => match a with
    | ⟨0, _⟩ => by show r.val = r.val + 0; omega
    | ⟨1, _⟩ => by show e.val = 0 + e.val; omega))

/-- A 50000 x 64 array re-laid as 25000 x 128 (two nodes to a row) reads, at row n / 2 and lane (n % 2) * 64 + q, the
    array at (n, q). -/
theorem pairRows_apply {α : Type} (v : (⟨2, ![50000, 64]⟩ : Shape).Idx → α)
    (h : (⟨2, ![50000, 64]⟩ : Shape).ShapeCasts ⟨2, ![25000, 128]⟩) (n : Fin 50000) (q : Fin 64) :
    shapeCast ⟨2, ![25000, 128]⟩ v h (ix2 (⟨n.val / 2, by omega⟩ : Fin 25000) (⟨n.val % 2 * 64 + q.val, by omega⟩ : Fin 128))
      = v (ix2 n q) :=
  shapeCast_apply v h _ (ix2 n q) (by
    rw [Shape.rowMajor_val_two, Shape.rowMajor_val_two]
    show n.val * 64 + q.val = n.val / 2 * 128 + (n.val % 2 * 64 + q.val)
    omega)

/-- The inverse re-layout: a 25000 x 128 array re-laid as 50000 x 64 reads, at (n, q), the array at row n / 2 and lane
    (n % 2) * 64 + q. -/
theorem unpairRows_apply {α : Type} (v : (⟨2, ![25000, 128]⟩ : Shape).Idx → α)
    (h : (⟨2, ![25000, 128]⟩ : Shape).ShapeCasts ⟨2, ![50000, 64]⟩) (n : Fin 50000) (q : Fin 64) :
    shapeCast ⟨2, ![50000, 64]⟩ v h (ix2 n q)
      = v (ix2 (⟨n.val / 2, by omega⟩ : Fin 25000) (⟨n.val % 2 * 64 + q.val, by omega⟩ : Fin 128)) :=
  shapeCast_apply v h (ix2 n q) _ (by
    rw [Shape.rowMajor_val_two, Shape.rowMajor_val_two]
    show n.val / 2 * 128 + (n.val % 2 * 64 + q.val) = n.val * 64 + q.val
    omega)

/-- The bias written twice side by side and laid out as a 1 x 128 row reads, at lane (n % 2) * 64 + q, the bias at q. -/
theorem biasRow_apply {α : Type} (b : (⟨1, ![64]⟩ : Shape).Idx → α)
    (hc : Shape.Concatenates [(⟨1, ![64]⟩ : Shape), ⟨1, ![64]⟩] ⟨1, ![128]⟩ 0)
    (hs : (⟨1, ![128]⟩ : Shape).ShapeCasts ⟨2, ![1, 128]⟩) (n : Fin 50000) (q : Fin 64) :
    shapeCast ⟨2, ![1, 128]⟩ (concatenate ⟨1, ![128]⟩ 0 [⟨⟨1, ![64]⟩, b⟩, ⟨⟨1, ![64]⟩, b⟩] hc) hs
      (ix2 (0 : Fin 1) (⟨n.val % 2 * 64 + q.val, by omega⟩ : Fin 128)) = b (ix1 q) := by
  refine (shapeCast_apply _ hs _ (ix1 (⟨n.val % 2 * 64 + q.val, by omega⟩ : Fin 128)) (by
    rw [Shape.rowMajor_val_two, Shape.rowMajor_val_one]
    show n.val % 2 * 64 + q.val = 0 * 128 + (n.val % 2 * 64 + q.val)
    omega)).trans ?_
  rcases Nat.mod_two_eq_zero_or_one n.val with h0 | h1
  · exact concatenate_pair_apply_left (t := ⟨1, ![128]⟩) (s₁ := ⟨1, ![64]⟩) (s₂ := ⟨1, ![64]⟩) (0 : Fin 1) b b hc
      (ix1 (⟨n.val % 2 * 64 + q.val, by omega⟩ : Fin 128)) rfl (ix1 q) (fun a => match a with
      | ⟨0, _⟩ => by show q.val = n.val % 2 * 64 + q.val; omega)
  · exact concatenate_pair_apply_right (t := ⟨1, ![128]⟩) (s₁ := ⟨1, ![64]⟩) (s₂ := ⟨1, ![64]⟩) (0 : Fin 1) b b hc
      (ix1 (⟨n.val % 2 * 64 + q.val, by omega⟩ : Fin 128)) rfl rfl (ix1 q) (fun a ha => match a with
      | ⟨0, _⟩ => absurd rfl ha) (by show q.val + 64 = n.val % 2 * 64 + q.val; omega)

/-! ## The stretches, each from an arbitrary valuation at its entry -/

section Stretches

variable (Wv : Valuation τ sig (Elt Ideal))

/-- The five argument arrays at a valuation, at their literal types. -/
abbrev aX : SX.Idx → EReal := Wv (Proc.devRef .tc main_arg0)
abbrev aE : IVec SE 32 := Wv (Proc.devRef .tc main_arg1)
abbrev aEw : SEw.Idx → EReal := Wv (Proc.devRef .tc main_arg2)
abbrev aWt : SWt.Idx → EReal := Wv (Proc.devRef .tc main_arg3)
abbrev aB : SB.Idx → EReal := Wv (Proc.devRef .tc main_arg4)
/-- The buffers later stretches read, at their literal types. -/
abbrev bSrc : SEw.Idx → BitVec 32 := Wv (Proc.devRef .tc main_v1)
abbrev bTgt : SEw.Idx → BitVec 32 := Wv (Proc.devRef .tc main_v3)
abbrev bDeg : (⟨1, ![50000]⟩ : Shape).Idx → EReal := Wv (Proc.devRef .tc main_v8)
abbrev bPos : (⟨1, ![50000]⟩ : Shape).Idx → BitVec 1 := Wv (Proc.devRef .tc main_v10)
abbrev bRsq : (⟨1, ![50000]⟩ : Shape).Idx → EReal := Wv (Proc.devRef .tc main_v11)
abbrev bLit : (⟨0, ![]⟩ : Shape).Idx → EReal := Wv (Proc.devRef .tc main_cst_2)
abbrev bDinv : (⟨1, ![50000]⟩ : Shape).Idx → EReal := Wv (Proc.devRef .tc main_v12)
abbrev bNorm : SEw.Idx → EReal := Wv (Proc.devRef .tc main_v28)
abbrev bCol : (⟨2, ![50000, 1]⟩ : Shape).Idx → EReal := Wv (Proc.devRef .tc main_v30)
abbrev bH : SO.Idx → EReal := Wv (Proc.devRef .tc main_v31_0)
abbrev bHd : SO.Idx → EReal := Wv (Proc.devRef .tc main_v31_1)
abbrev bAgg2 : (⟨2, ![25000, 128]⟩ : Shape).Idx → EReal := Wv (Proc.devRef .tc main_v46)
abbrev bHd2 : (⟨2, ![25000, 128]⟩ : Shape).Idx → EReal := Wv (Proc.devRef .tc main_v47)
abbrev bBias2 : (⟨2, ![1, 128]⟩ : Shape).Idx → EReal := Wv (Proc.devRef .tc main_v49)
abbrev bOut2 : (⟨2, ![25000, 128]⟩ : Shape).Idx → EReal := Wv (Proc.devRef .tc main_v50)
abbrev bOut : SO.Idx → EReal := Wv (Proc.devRef .tc main_v51)

/-! ### The first stretch: the edge words, the degree, its positivity test and its inverse square root -/

theorem first_src (e : Fin 800000) : bSrc (StableHlo.after (hostOps0 (F := Ideal)) Wv) (ix1 e) = src (aE Wv) e := by
  show StableHlo.after (hostOps0 (F := Ideal)) Wv (Proc.devRef .tc main_v1) (ix1 e) = _
  after_results_simp
  exact edgeRow_apply (0 : Fin 2) _ _ _ e

theorem first_tgt (e : Fin 800000) : bTgt (StableHlo.after (hostOps0 (F := Ideal)) Wv) (ix1 e) = tgt (aE Wv) e := by
  show StableHlo.after (hostOps0 (F := Ideal)) Wv (Proc.devRef .tc main_v3) (ix1 e) = _
  after_results_simp
  exact edgeRow_apply (1 : Fin 2) _ _ _ e

/-- The printed dimension records are the general forms'. -/
theorem degScatter_eq : (scatter_S50000_S800000x1_S800000_n_0_0_1 : ScatterDims S50000 S800000x1 S800000)
    = vecScatterDims 50000 800000 Facts₀.scatter_S50000_S800000x1_S800000_n_0_0_1_wf := rfl
theorem aggScatter_eq : (scatter_S50000x64_S800000x1_S800000x64_1_0_0_1 : ScatterDims S50000x64 S800000x1 S800000x64)
    = rowScatterDims 50000 64 800000 Facts₀.scatter_S50000x64_S800000x1_S800000x64_1_0_0_1_wf := rfl
theorem dinvGather_eq : (gather_S50000_S800000x1_S800000_n_0_n_n_0_1_1 : GatherDims S50000 S800000x1 S800000)
    = vecGatherDims 50000 800000 Facts₀.gather_S50000_S800000x1_S800000_n_0_n_n_0_1_1_wf := rfl
theorem rowGather_eq : (gather_S50000x64_S800000x1_S800000x64_1_0_n_n_0_1_164 : GatherDims S50000x64 S800000x1 S800000x64)
    = rowGatherDims 50000 64 800000 Facts₀.gather_S50000x64_S800000x1_S800000x64_1_0_n_n_0_1_164_wf := rfl

/-- Closes `⟨the printed degree term⟩ (ix1 n) = deg …`: the scatter-add read as a sum over the edges, the two broadcast
    literals read, the target words read off the edge array's second row, the leading +0.0 dropped. -/
local macro "degree_tail" Wv:term : tactic => `(tactic| (
  rw [addf_apply, Host.scatterAdd, Ideal.hostScatterAdd_def, degScatter_eq, scatterAdd_vec_apply, bcastScalar_apply, bcastScalar_apply]
  have hw : ∀ e : Fin 800000, shapeCast main_v3.ty.shape (extractStridedSlice S1x800000 ![1, 0] ($Wv (Proc.devRef .tc main_arg1))
      slices_S2x800000_S1x800000_1_0) shapeCasts_S1x800000_S800000 (ix1 e) = tgt (aE $Wv) e :=
    fun e => edgeRow_apply (1 : Fin 2) (aE $Wv) _ _ e
  simp only [bcastCol_apply (show (800000 : ℕ) ≠ 1 by decide), hw]
  unfold deg
  refine congrArg₂ (· + ·) ?_ rfl
  refine (congrArg₂ (· + ·) zero_eq rfl).trans ((zero_add _).trans ?_)
  exact Finset.sum_congr rfl (fun e _ => rfl)))

/-- A node's degree: the scatter-add of the edge weights by target word from zeros, plus the broadcast 1. -/
theorem first_deg (n : Fin 50000) : bDeg (StableHlo.after (hostOps0 (F := Ideal)) Wv) (ix1 n) = deg (aE Wv) (aEw Wv) n := by
  show StableHlo.after (hostOps0 (F := Ideal)) Wv (Proc.devRef .tc main_v8) (ix1 n) = _
  after_results_simp
  degree_tail Wv

theorem first_pos (n : Fin 50000) : bPos (StableHlo.after (hostOps0 (F := Ideal)) Wv) (ix1 n)
    = FloatOps.cmpf (F := Ideal) (φ := .f32) .ogt (deg (aE Wv) (aEw Wv) n) zero := by
  show StableHlo.after (hostOps0 (F := Ideal)) Wv (Proc.devRef .tc main_v10) (ix1 n) = _
  after_results_simp
  rw [cmpf_apply, bcastScalar_apply]
  refine congrArg₂ (FloatOps.cmpf (F := Ideal) (φ := .f32) .ogt) ?_ rfl
  degree_tail Wv

/-- The host's inverse square root reads elementwise. -/
theorem hostRsqrt_apply {s : Shape} (x : s.Idx → EReal) (i : s.Idx) :
    Host.rsqrt (F := Ideal) (φ := .f32) x i = FloatOps.hostUnary (F := Ideal) (φ := .f32) .rsqrt (x i) := rfl

theorem first_rsq (n : Fin 50000) : bRsq (StableHlo.after (hostOps0 (F := Ideal)) Wv) (ix1 n)
    = FloatOps.hostUnary (F := Ideal) (φ := .f32) .rsqrt (deg (aE Wv) (aEw Wv) n) := by
  show StableHlo.after (hostOps0 (F := Ideal)) Wv (Proc.devRef .tc main_v11) (ix1 n) = _
  after_results_simp
  rw [hostRsqrt_apply]
  refine congrArg (FloatOps.hostUnary (F := Ideal) (φ := .f32) .rsqrt) ?_
  degree_tail Wv

theorem first_lit : bLit (StableHlo.after (hostOps0 (F := Ideal)) Wv) ix0 = zero := by
  show StableHlo.after (hostOps0 (F := Ideal)) Wv (Proc.devRef .tc main_cst_2) ix0 = _
  after_results_simp
  rfl

theorem first_keeps_ew : aEw (StableHlo.after (hostOps0 (F := Ideal)) Wv) = aEw Wv := by
  show StableHlo.after (hostOps0 (F := Ideal)) Wv (Proc.devRef .tc main_arg2) = Wv (Proc.devRef .tc main_arg2)
  after_results_simp
theorem first_keeps_x : aX (StableHlo.after (hostOps0 (F := Ideal)) Wv) = aX Wv := by
  show StableHlo.after (hostOps0 (F := Ideal)) Wv (Proc.devRef .tc main_arg0) = Wv (Proc.devRef .tc main_arg0)
  after_results_simp
theorem first_keeps_wt : aWt (StableHlo.after (hostOps0 (F := Ideal)) Wv) = aWt Wv := by
  show StableHlo.after (hostOps0 (F := Ideal)) Wv (Proc.devRef .tc main_arg3) = Wv (Proc.devRef .tc main_arg3)
  after_results_simp
theorem first_keeps_b : aB (StableHlo.after (hostOps0 (F := Ideal)) Wv) = aB Wv := by
  show StableHlo.after (hostOps0 (F := Ideal)) Wv (Proc.devRef .tc main_arg4) = Wv (Proc.devRef .tc main_arg4)
  after_results_simp

/-! ### The second stretch (the inlined select): the inverse square root where the degree is positive, else the literal -/

/-- The inlined `where`: the value where the test bit is set, else the broadcast literal. -/
theorem whereSelect_apply (p : (⟨1, ![50000]⟩ : Shape).Idx → BitVec 1) (r : (⟨1, ![50000]⟩ : Shape).Idx → EReal)
    (l : (⟨0, ![]⟩ : Shape).Idx → EReal) (n : Fin 50000) :
    select p r (broadcastInDim S50000 (![] : Fin 0 → Fin S50000.rank) bcast_S_S50000 (id l)) (ix1 n)
      = Scalar.select (p (ix1 n)) (r (ix1 n)) (l ix0) := by
  rw [select_apply, bcastScalar_apply]
  rfl

theorem second_dinv (n : Fin 50000) : bDinv (StableHlo.after (hostOps0_1 (F := Ideal)) Wv) (ix1 n)
    = Scalar.select (bPos Wv (ix1 n)) (bRsq Wv (ix1 n)) (bLit Wv ix0) := by
  show StableHlo.after (hostOps0_1 (F := Ideal)) Wv (Proc.devRef .tc main_v12) (ix1 n) = _
  after_results_simp
  exact whereSelect_apply (bPos Wv) (bRsq Wv) (bLit Wv) n

theorem second_keeps_src : bSrc (StableHlo.after (hostOps0_1 (F := Ideal)) Wv) = bSrc Wv := by
  show StableHlo.after (hostOps0_1 (F := Ideal)) Wv (Proc.devRef .tc main_v1) = Wv (Proc.devRef .tc main_v1)
  after_results_simp
theorem second_keeps_tgt : bTgt (StableHlo.after (hostOps0_1 (F := Ideal)) Wv) = bTgt Wv := by
  show StableHlo.after (hostOps0_1 (F := Ideal)) Wv (Proc.devRef .tc main_v3) = Wv (Proc.devRef .tc main_v3)
  after_results_simp
theorem second_keeps_ew : aEw (StableHlo.after (hostOps0_1 (F := Ideal)) Wv) = aEw Wv := by
  show StableHlo.after (hostOps0_1 (F := Ideal)) Wv (Proc.devRef .tc main_arg2) = Wv (Proc.devRef .tc main_arg2)
  after_results_simp
theorem second_keeps_x : aX (StableHlo.after (hostOps0_1 (F := Ideal)) Wv) = aX Wv := by
  show StableHlo.after (hostOps0_1 (F := Ideal)) Wv (Proc.devRef .tc main_arg0) = Wv (Proc.devRef .tc main_arg0)
  after_results_simp
theorem second_keeps_wt : aWt (StableHlo.after (hostOps0_1 (F := Ideal)) Wv) = aWt Wv := by
  show StableHlo.after (hostOps0_1 (F := Ideal)) Wv (Proc.devRef .tc main_arg3) = Wv (Proc.devRef .tc main_arg3)
  after_results_simp
theorem second_keeps_b : aB (StableHlo.after (hostOps0_1 (F := Ideal)) Wv) = aB Wv := by
  show StableHlo.after (hostOps0_1 (F := Ideal)) Wv (Proc.devRef .tc main_arg4) = Wv (Proc.devRef .tc main_arg4)
  after_results_simp

end Stretches

section Stretches2

variable (Wv : Valuation τ sig (Elt Ideal))

/-! ### The third stretch: the gathers' index words, an edge's normalization, the column of squared inverse roots -/

/-- The index words a gather is given: each word moved up by 50000 once if it is negative, laid out as a column. -/
theorem wrapWords_apply (wd : SEw.Idx → BitVec 32) (e : Fin 800000) :
    (broadcastInDim S800000x1 ![0] bcast_S800000_S800000x1_0
      (select (cmpi CmpIPredicate.slt wd (broadcastInDim S800000 ![] bcast_S_S800000 (constantI S_ 32 0#32)))
        (addi wd (broadcastInDim S800000 ![] bcast_S_S800000 (constantI S_ 32 50000#32))) wd)) (ix2 e (0 : Fin 1))
      = wrapIdx (wd (ix1 e)) := by
  rw [bcastCol_apply (show (800000 : ℕ) ≠ 1 by decide)]
  show Scalar.select (IntOp.cmpi .slt (wd (ix1 e)) (broadcastInDim S800000 ![] bcast_S_S800000 (constantI S_ 32 0#32) (ix1 e)))
    (IntOp.addi (wd (ix1 e)) (broadcastInDim S800000 ![] bcast_S_S800000 (constantI S_ 32 50000#32) (ix1 e))) (wd (ix1 e)) = _
  rw [bcastScalar_apply, bcastScalar_apply]
  rfl

theorem third_norm (e : Fin 800000) : bNorm (StableHlo.after (hostOps0_2 (F := Ideal)) Wv) (ix1 e)
    = bDinv Wv (ix1 (clampIdx (wrapIdx (bSrc Wv (ix1 e))))) * aEw Wv (ix1 e) * bDinv Wv (ix1 (clampIdx (wrapIdx (bTgt Wv (ix1 e))))) := by
  show StableHlo.after (hostOps0_2 (F := Ideal)) Wv (Proc.devRef .tc main_v28) (ix1 e) = _
  after_results_simp
  rw [mulf_apply, mulf_apply, dinvGather_eq, gather_vec_apply (show 0 < 50000 by decide), gather_vec_apply (show 0 < 50000 by decide)]
  refine congrArg₂ (· * ·) (congrArg₂ (· * ·) (congrArg (bDinv Wv) (congrArg ix1 (Fin.ext ?_))) rfl)
    (congrArg (bDinv Wv) (congrArg ix1 (Fin.ext ?_)))
  · exact congrArg (fun w : BitVec 32 => min w.toInt.toNat (50000 - 1)) (wrapWords_apply (bSrc Wv) e)
  · exact congrArg (fun w : BitVec 32 => min w.toInt.toNat (50000 - 1)) (wrapWords_apply (bTgt Wv) e)

theorem third_col (n : Fin 50000) : bCol (StableHlo.after (hostOps0_2 (F := Ideal)) Wv) (ix2 n (0 : Fin 1))
    = bDinv Wv (ix1 n) * bDinv Wv (ix1 n) := by
  show StableHlo.after (hostOps0_2 (F := Ideal)) Wv (Proc.devRef .tc main_v30) (ix2 n (0 : Fin 1)) = _
  after_results_simp
  exact Cert.LibColumn.shapeCast_a_a1_apply (mulf (F := Ideal) (φ := .f32) (s := S50000) (bDinv Wv) (bDinv Wv)) shapeCasts_S50000_S50000x1 n 0

theorem third_keeps_src : bSrc (StableHlo.after (hostOps0_2 (F := Ideal)) Wv) = bSrc Wv := by
  show StableHlo.after (hostOps0_2 (F := Ideal)) Wv (Proc.devRef .tc main_v1) = Wv (Proc.devRef .tc main_v1)
  after_results_simp
theorem third_keeps_tgt : bTgt (StableHlo.after (hostOps0_2 (F := Ideal)) Wv) = bTgt Wv := by
  show StableHlo.after (hostOps0_2 (F := Ideal)) Wv (Proc.devRef .tc main_v3) = Wv (Proc.devRef .tc main_v3)
  after_results_simp
theorem third_keeps_x : aX (StableHlo.after (hostOps0_2 (F := Ideal)) Wv) = aX Wv := by
  show StableHlo.after (hostOps0_2 (F := Ideal)) Wv (Proc.devRef .tc main_arg0) = Wv (Proc.devRef .tc main_arg0)
  after_results_simp
theorem third_keeps_wt : aWt (StableHlo.after (hostOps0_2 (F := Ideal)) Wv) = aWt Wv := by
  show StableHlo.after (hostOps0_2 (F := Ideal)) Wv (Proc.devRef .tc main_arg3) = Wv (Proc.devRef .tc main_arg3)
  after_results_simp
theorem third_keeps_b : aB (StableHlo.after (hostOps0_2 (F := Ideal)) Wv) = aB Wv := by
  show StableHlo.after (hostOps0_2 (F := Ideal)) Wv (Proc.devRef .tc main_arg4) = Wv (Proc.devRef .tc main_arg4)
  after_results_simp

/-! ### The fourth stretch: the messages scattered by target word, and the second region's three operands laid out
    two nodes to a row -/

theorem fourth_agg (n : Fin 50000) (q : Fin 64) :
    bAgg2 (StableHlo.after (hostOps1 (F := Ideal)) Wv) (ix2 (⟨n.val / 2, by omega⟩ : Fin 25000) (⟨n.val % 2 * 64 + q.val, by omega⟩ : Fin 128))
      = zero + ∑ e : Fin 800000, if (bTgt Wv (ix1 e)).toInt = (n.val : ℤ)
          then bH Wv (ix2 (clampIdx (wrapIdx (bSrc Wv (ix1 e)))) q) * bNorm Wv (ix1 e) else 0 := by
  show StableHlo.after (hostOps1 (F := Ideal)) Wv (Proc.devRef .tc main_v46) (ix2 (⟨n.val / 2, by omega⟩ : Fin 25000) (⟨n.val % 2 * 64 + q.val, by omega⟩ : Fin 128)) = _
  after_results_simp
  refine (pairRows_apply _ shapeCasts_S50000x64_S25000x128 n q).trans ?_
  rw [Host.scatterAdd, Ideal.hostScatterAdd_def, aggScatter_eq, scatterAdd_rows_apply, bcastScalar_apply]
  refine congrArg₂ (· + ·) rfl (Finset.sum_congr rfl (fun e _ => ?_))
  rw [bcastCol_apply (show (800000 : ℕ) ≠ 1 by decide)]
  refine if_congr Iff.rfl ?_ rfl
  rw [mulf_apply, extf_apply, rowGather_eq, gather_rows_apply (show 0 < 50000 by decide),
    bcastAcross_apply (show (800000 : ℕ) ≠ 1 by decide)]
  refine congrArg₂ (· * ·) (congrArg (bH Wv) (congrArg (fun r : Fin 50000 => ix2 r q) (Fin.ext ?_)))
    (bcastCol_apply (show (800000 : ℕ) ≠ 1 by decide) _ (bNorm Wv) e 0)
  exact congrArg (fun w : BitVec 32 => min w.toInt.toNat (50000 - 1)) (wrapWords_apply (bSrc Wv) e)

theorem fourth_hd (n : Fin 50000) (q : Fin 64) :
    bHd2 (StableHlo.after (hostOps1 (F := Ideal)) Wv) (ix2 (⟨n.val / 2, by omega⟩ : Fin 25000) (⟨n.val % 2 * 64 + q.val, by omega⟩ : Fin 128))
      = bHd Wv (ix2 n q) := by
  show StableHlo.after (hostOps1 (F := Ideal)) Wv (Proc.devRef .tc main_v47) (ix2 (⟨n.val / 2, by omega⟩ : Fin 25000) (⟨n.val % 2 * 64 + q.val, by omega⟩ : Fin 128)) = _
  after_results_simp
  exact pairRows_apply (bHd Wv) shapeCasts_S50000x64_S25000x128 n q

theorem fourth_bias (n : Fin 50000) (q : Fin 64) :
    bBias2 (StableHlo.after (hostOps1 (F := Ideal)) Wv) (ix2 (0 : Fin 1) (⟨n.val % 2 * 64 + q.val, by omega⟩ : Fin 128))
      = aB Wv (ix1 q) := by
  show StableHlo.after (hostOps1 (F := Ideal)) Wv (Proc.devRef .tc main_v49) (ix2 (0 : Fin 1) (⟨n.val % 2 * 64 + q.val, by omega⟩ : Fin 128)) = _
  after_results
  exact biasRow_apply (aB Wv) concatenates_S64_S64_S128_d0 shapeCasts_S128_S1x128 n q

/-! ### The fifth stretch: the second region's result laid out one node to a row again -/

theorem fifth_out (n : Fin 50000) (q : Fin 64) :
    bOut (StableHlo.after (hostOps2 (F := Ideal)) Wv) (ix2 n q)
      = bOut2 Wv (ix2 (⟨n.val / 2, by omega⟩ : Fin 25000) (⟨n.val % 2 * 64 + q.val, by omega⟩ : Fin 128)) := by
  show StableHlo.after (hostOps2 (F := Ideal)) Wv (Proc.devRef .tc main_v51) (ix2 n q) = _
  after_results_simp
  exact unpairRows_apply (bOut2 Wv) shapeCasts_S25000x128_S50000x64 n q

end Stretches2

/-! ## The run: from the launch memory, stretch by stretch and region by region, to the result array -/

section Run

variable (m : (ℓ : Loc nD τ sig) → Buf (Elt Ideal) ℓ) (ρ : Dev nD → PrngReg) (c : Dev nD)

/-- The argument arrays as launched, at their literal types. -/
abbrev X : SX.Idx → EReal := m ((c.tc : Thread nD τ).loc main_arg0)
abbrev EI : IVec SE 32 := m ((c.tc : Thread nD τ).loc main_arg1)
abbrev EW : SEw.Idx → EReal := m ((c.tc : Thread nD τ).loc main_arg2)
abbrev WT : SWt.Idx → EReal := m ((c.tc : Thread nD τ).loc main_arg3)
abbrev B : SB.Idx → EReal := m ((c.tc : Thread nD τ).loc main_arg4)

/-! ### After the first stretch -/
theorem w1_src (e : Fin 800000) : bSrc (W1 m ρ c) (ix1 e) = src (EI m c) e := first_src (W0 m ρ c) e
theorem w1_tgt (e : Fin 800000) : bTgt (W1 m ρ c) (ix1 e) = tgt (EI m c) e := first_tgt (W0 m ρ c) e
theorem w1_pos (n : Fin 50000) : bPos (W1 m ρ c) (ix1 n) = FloatOps.cmpf (F := Ideal) (φ := .f32) .ogt (deg (EI m c) (EW m c) n) zero :=
  first_pos (W0 m ρ c) n
theorem w1_rsq (n : Fin 50000) : bRsq (W1 m ρ c) (ix1 n) = FloatOps.hostUnary (F := Ideal) (φ := .f32) .rsqrt (deg (EI m c) (EW m c) n) :=
  first_rsq (W0 m ρ c) n
theorem w1_lit : bLit (W1 m ρ c) ix0 = zero := first_lit (W0 m ρ c)
theorem w1_ew : aEw (W1 m ρ c) = EW m c := first_keeps_ew (W0 m ρ c)
theorem w1_x : aX (W1 m ρ c) = X m c := first_keeps_x (W0 m ρ c)
theorem w1_wt : aWt (W1 m ρ c) = WT m c := first_keeps_wt (W0 m ρ c)
theorem w1_b : aB (W1 m ρ c) = B m c := first_keeps_b (W0 m ρ c)

/-! ### After the second stretch -/
theorem w2_dinv (n : Fin 50000) : bDinv (W2 m ρ c) (ix1 n) = dinv (EI m c) (EW m c) n := by
  refine (second_dinv (W1 m ρ c) n).trans ?_
  rw [w1_pos, w1_rsq, w1_lit]
  rfl
theorem w2_src (e : Fin 800000) : bSrc (W2 m ρ c) (ix1 e) = src (EI m c) e :=
  (congrFun (second_keeps_src (W1 m ρ c)) (ix1 e)).trans (w1_src m ρ c e)
theorem w2_tgt (e : Fin 800000) : bTgt (W2 m ρ c) (ix1 e) = tgt (EI m c) e :=
  (congrFun (second_keeps_tgt (W1 m ρ c)) (ix1 e)).trans (w1_tgt m ρ c e)
theorem w2_ew : aEw (W2 m ρ c) = EW m c := (second_keeps_ew (W1 m ρ c)).trans (w1_ew m ρ c)
theorem w2_x : aX (W2 m ρ c) = X m c := (second_keeps_x (W1 m ρ c)).trans (w1_x m ρ c)
theorem w2_wt : aWt (W2 m ρ c) = WT m c := (second_keeps_wt (W1 m ρ c)).trans (w1_wt m ρ c)
theorem w2_b : aB (W2 m ρ c) = B m c := (second_keeps_b (W1 m ρ c)).trans (w1_b m ρ c)

/-! ### After the third stretch: the first region's entry -/
theorem w3_norm (e : Fin 800000) : bNorm (W3 m ρ c) (ix1 e) = norm (EI m c) (EW m c) e := by
  refine (third_norm (W2 m ρ c) e).trans ?_
  rw [w2_src, w2_tgt, w2_dinv, w2_dinv, w2_ew]
  rfl
theorem w3_col (n : Fin 50000) : bCol (W3 m ρ c) (ix2 n (0 : Fin 1)) = dinv (EI m c) (EW m c) n * dinv (EI m c) (EW m c) n := by
  refine (third_col (W2 m ρ c) n).trans ?_
  rw [w2_dinv]
theorem w3_src (e : Fin 800000) : bSrc (W3 m ρ c) (ix1 e) = src (EI m c) e :=
  (congrFun (third_keeps_src (W2 m ρ c)) (ix1 e)).trans (w2_src m ρ c e)
theorem w3_tgt (e : Fin 800000) : bTgt (W3 m ρ c) (ix1 e) = tgt (EI m c) e :=
  (congrFun (third_keeps_tgt (W2 m ρ c)) (ix1 e)).trans (w2_tgt m ρ c e)
theorem w3_x : aX (W3 m ρ c) = X m c := (third_keeps_x (W2 m ρ c)).trans (w2_x m ρ c)
theorem w3_wt : aWt (W3 m ρ c) = WT m c := (third_keeps_wt (W2 m ρ c)).trans (w2_wt m ρ c)
theorem w3_b : aB (W3 m ρ c) = B m c := (third_keeps_b (W2 m ρ c)).trans (w2_b m ρ c)

/-! ### After the first region: the transformed features and their self-loop term -/
theorem w4_h (n : Fin 50000) (q : Fin 64) : bH (W4 m ρ c) (ix2 n q) = h (X m c) (WT m c) n q := by
  have e : bH (W4 m ρ c) = Cert.KernelIdeal.Region0.product (aX (W3 m ρ c)) (aWt (W3 m ρ c)) :=
    (W4_arr m ρ c 3).trans (Cert.KernelIdeal.Region0.finalProduct (V3 m ρ) c)
  refine (congrFun e (ix2 n q)).trans ?_
  show ∑ k : Fin 256, aX (W3 m ρ c) (ix2 n k) * aWt (W3 m ρ c) (ix2 k q) = _
  rw [w3_x, w3_wt]
  rfl
theorem w4_hd (n : Fin 50000) (q : Fin 64) :
    bHd (W4 m ρ c) (ix2 n q) = h (X m c) (WT m c) n q * (dinv (EI m c) (EW m c) n * dinv (EI m c) (EW m c) n) := by
  have e : bHd (W4 m ρ c) = Cert.KernelIdeal.Region0.scaledProduct (aX (W3 m ρ c)) (aWt (W3 m ρ c)) (bCol (W3 m ρ c)) :=
    (W4_arr m ρ c 4).trans (Cert.KernelIdeal.Region0.finalScaled (V3 m ρ) c)
  refine (congrFun e (ix2 n q)).trans ?_
  show (∑ k : Fin 256, aX (W3 m ρ c) (ix2 n k) * aWt (W3 m ρ c) (ix2 k q)) * bCol (W3 m ρ c) (ix2 n (0 : Fin 1)) = _
  rw [w3_x, w3_wt, w3_col]
  rfl
theorem w4_src (e : Fin 800000) : bSrc (W4 m ρ c) (ix1 e) = src (EI m c) e :=
  (congrFun (W4_of_ne m ρ c main_v1 (by decide)) (ix1 e)).trans (w3_src m ρ c e)
theorem w4_tgt (e : Fin 800000) : bTgt (W4 m ρ c) (ix1 e) = tgt (EI m c) e :=
  (congrFun (W4_of_ne m ρ c main_v3 (by decide)) (ix1 e)).trans (w3_tgt m ρ c e)
theorem w4_norm (e : Fin 800000) : bNorm (W4 m ρ c) (ix1 e) = norm (EI m c) (EW m c) e :=
  (congrFun (W4_of_ne m ρ c main_v28 (by decide)) (ix1 e)).trans (w3_norm m ρ c e)
theorem w4_b : aB (W4 m ρ c) = B m c := (W4_of_ne m ρ c main_arg4 (by decide)).trans (w3_b m ρ c)

/-! ### After the fourth stretch: the second region's entry -/
theorem w5_agg (n : Fin 50000) (q : Fin 64) :
    bAgg2 (W5 m ρ c) (ix2 (⟨n.val / 2, by omega⟩ : Fin 25000) (⟨n.val % 2 * 64 + q.val, by omega⟩ : Fin 128))
      = agg (X m c) (EI m c) (EW m c) (WT m c) n q := by
  refine (fourth_agg (W4 m ρ c) n q).trans ?_
  refine (congrArg₂ (· + ·) zero_eq rfl).trans ((zero_add _).trans ?_)
  unfold agg
  refine Finset.sum_congr rfl (fun e _ => ?_)
  rw [w4_tgt, w4_src, w4_h, w4_norm]
theorem w5_hd (n : Fin 50000) (q : Fin 64) :
    bHd2 (W5 m ρ c) (ix2 (⟨n.val / 2, by omega⟩ : Fin 25000) (⟨n.val % 2 * 64 + q.val, by omega⟩ : Fin 128))
      = h (X m c) (WT m c) n q * (dinv (EI m c) (EW m c) n * dinv (EI m c) (EW m c) n) :=
  (fourth_hd (W4 m ρ c) n q).trans (w4_hd m ρ c n q)
theorem w5_bias (n : Fin 50000) (q : Fin 64) :
    bBias2 (W5 m ρ c) (ix2 (0 : Fin 1) (⟨n.val % 2 * 64 + q.val, by omega⟩ : Fin 128)) = B m c (ix1 q) :=
  (fourth_bias (W4 m ρ c) n q).trans (congrFun (w4_b m ρ c) (ix1 q))

/-! ### After the second region and the last stretch: the result -/
theorem w7_out (n : Fin 50000) (q : Fin 64) :
    bOut (W7 m ρ c) (ix2 n q) = out (X m c) (EI m c) (EW m c) (WT m c) (B m c) n q := by
  refine (fifth_out (W6 m ρ c) n q).trans ?_
  have e : bOut2 (W6 m ρ c)
      = Cert.KernelIdeal.Region1.biasedRelu (bAgg2 (W5 m ρ c)) (bHd2 (W5 m ρ c)) (bBias2 (W5 m ρ c)) :=
    (W6_arr m ρ c 3).trans (Cert.KernelIdeal.Region1.final (V5 m ρ) c)
  refine (congrFun e _).trans ?_
  rw [Cert.KernelIdeal.Region1.biasedRelu_apply]
  unfold out
  refine congrArg₂ (max : EReal → EReal → EReal) ?_ rfl
  refine congrArg₂ (· + ·) (congrArg₂ (· + ·) ?_ ?_) ?_
  · exact w5_agg m ρ c n q
  · exact w5_hd m ρ c n q
  · exact w5_bias m ρ c n q

/-- The kernel program's result array, as the last boundary holds it, is the specification's function of the launch
    memory's argument arrays. -/
theorem result_eq : bOut (W7 m ρ c) = G (X m c) (EI m c) (EW m c) (WT m c) (B m c) := by
  funext i
  rw [eq_ix2 i]
  exact w7_out m ρ c (i 0) (i 1)

end Run

end Cert.KernelIdeal.HostValue

end
-- ==== Proof.RefValue.lean ====
/-
  The reference program computes the graph convolution G of the specification, index by index over the extended reals.

  The program lays the 800000 edges and one self-loop per node (50000 of them, of weight 1, from node n to node n) out
  as 850000 messages: message j < 800000 is edge j, message 800000 + n is node n's self-loop. Its source words, target
  words and weights are three concatenations read at either half. A node's number as a 32-bit word reads signed as
  the number, is left alone by the wrap of negative words and is sent to the node by the clamp, so a self-loop gathers
  from and scatters to its own node. A sum over the messages splits into the sum over the edges and the sum over the
  self-loops, and of the self-loops only node n's own is sent to n. Hence

    the first scatter-add at n    = (sum of the weights of the edges into n) + 1                       = deg n,
    the select of the compare     = rsqrt (deg n) where deg n > 0, else 0                              = dinv n,
    the product of the gathers    = norm e at edge e, and dinv n * 1 * dinv n at node n's self-loop,
    the contraction at (n, q)     = sum over k of x n k * wt k q                                       = h n q,
    the second scatter-add        = agg n q + h n q * (dinv n * dinv n),
    the bias and the maximum      = max (agg n q + h n q * (dinv n * dinv n) + b q) 0                  = out n q.

  Only the units of + and * on the extended reals are used (0 + a = a, a * 1 = a).
-/
import proofs.«418429_j49297634624086_3_alg».proof.Proof.Gen.ReferenceIdeal.Read
import proofs.«418429_j49297634624086_3_alg».proof.Proof.Spec
import proofs.«418429_j49297634624086_3_alg».proof.Proof.LibScatterGather
import Idealize.ShloMosaic.Lib.Pipeline.Value
import Idealize.ShloMosaic.Lib.ValueIdx
import Idealize.ShloMosaic.Lib.ValueIdxRank1
import Idealize.ShloMosaic.PureOps.Ideal
import Mathlib.Algebra.BigOperators.Fin

noncomputable section

namespace Cert.ReferenceIdeal.RefValue

open Idealize.ShloMosaic Idealize.ShloMosaic.ValueIdx Cert.ReferenceIdeal Cert.ReferenceIdeal.Read Cert.Gcn
open Cert.LibScatterGather

section Stages

variable (x0 : (⟨S50000x256, .f32⟩ : BufTy).Contents (Elt Ideal)) (x1 : (⟨S2x800000, .i32⟩ : BufTy).Contents (Elt Ideal))
  (x2 : (⟨S800000, .f32⟩ : BufTy).Contents (Elt Ideal)) (x3 : (⟨S256x64, .f32⟩ : BufTy).Contents (Elt Ideal))
  (x4 : (⟨S64, .f32⟩ : BufTy).Contents (Elt Ideal))

/-! ## The 850000 messages: the 800000 edges, then one self-loop per node -/

/-- Edge e's place among the messages. -/
abbrev edgeAt (e : Fin 800000) : Fin 850000 := Fin.castAdd 50000 e
/-- Node n's self-loop's place among the messages. -/
abbrev loopAt (n : Fin 50000) : Fin 850000 := Fin.natAdd 800000 n

/-- Row 0 of the edge array, flattened, at e is the element (0, e). -/
theorem srcRow_idx (e : Fin 800000) : idx_main_v0 (idx_main_v1 (ix1 e)) = ix2 (0 : Fin 2) e :=
  funext fun a => Fin.ext (by
    match a with
    | ⟨0, _⟩ => rfl
    | ⟨1, _⟩ => exact Nat.mod_eq_of_lt e.isLt)

/-- Row 1 of the edge array, flattened, at e is the element (1, e). -/
theorem tgtRow_idx (e : Fin 800000) : idx_main_v2 (idx_main_v3 (ix1 e)) = ix2 (1 : Fin 2) e :=
  funext fun a => Fin.ext (by
    match a with
    | ⟨0, _⟩ => rfl
    | ⟨1, _⟩ => exact Nat.mod_eq_of_lt e.isLt)

/-- The source words of the messages: at an edge, the edge's source word. -/
theorem srcWords_edge (e : Fin 800000) : val_main_v5 (F := Ideal) x1 (ix1 (edgeAt e)) = src x1 e := by
  unfold val_main_v5
  refine (concatenate_pair_apply_left (t := S850000) (s₁ := S800000) (s₂ := S50000) (0 : Fin S850000.rank) _ _ _ (ix1 (edgeAt e)) rfl (ix1 e)
    (fun b => match b with | ⟨0, _⟩ => rfl)).trans ?_
  rw [val_main_v1_apply, val_main_v0_apply, srcRow_idx]
  rfl

/-- The source words of the messages: at a self-loop, the node's own number. -/
theorem srcWords_loop (n : Fin 50000) : val_main_v5 (F := Ideal) x1 (ix1 (loopAt n)) = BitVec.ofNat 32 n.val := by
  unfold val_main_v5
  refine (concatenate_pair_apply_right (t := S850000) (s₁ := S800000) (s₂ := S50000) (0 : Fin S850000.rank) _ _ _ (ix1 (loopAt n)) rfl rfl (ix1 n)
    (fun b hb => absurd (Subsingleton.elim _ _) hb) (Nat.add_comm _ _)).trans ?_
  rfl

/-- The target words of the messages: at an edge, the edge's target word. -/
theorem tgtWords_edge (e : Fin 800000) : val_main_v6 (F := Ideal) x1 (ix1 (edgeAt e)) = tgt x1 e := by
  unfold val_main_v6
  refine (concatenate_pair_apply_left (t := S850000) (s₁ := S800000) (s₂ := S50000) (0 : Fin S850000.rank) _ _ _ (ix1 (edgeAt e)) rfl (ix1 e)
    (fun b => match b with | ⟨0, _⟩ => rfl)).trans ?_
  rw [val_main_v3_apply, val_main_v2_apply, tgtRow_idx]
  rfl

/-- The target words of the messages: at a self-loop, the node's own number. -/
theorem tgtWords_loop (n : Fin 50000) : val_main_v6 (F := Ideal) x1 (ix1 (loopAt n)) = BitVec.ofNat 32 n.val := by
  unfold val_main_v6
  refine (concatenate_pair_apply_right (t := S850000) (s₁ := S800000) (s₂ := S50000) (0 : Fin S850000.rank) _ _ _ (ix1 (loopAt n)) rfl rfl (ix1 n)
    (fun b hb => absurd (Subsingleton.elim _ _) hb) (Nat.add_comm _ _)).trans ?_
  rfl

/-- The weights of the messages: at an edge, the edge's weight. -/
theorem weights_edge (e : Fin 800000) : val_main_v8 (F := Ideal) x2 (ix1 (edgeAt e)) = x2 (ix1 e) := by
  unfold val_main_v8
  exact concatenate_pair_apply_left (t := S850000) (s₁ := S800000) (s₂ := S50000) (0 : Fin S850000.rank) _ _ _ (ix1 (edgeAt e)) rfl (ix1 e)
    (fun b => match b with | ⟨0, _⟩ => rfl)

/-- The weights of the messages: at a self-loop, the literal 1. -/
theorem weights_loop (n : Fin 50000) : val_main_v8 (F := Ideal) x2 (ix1 (loopAt n)) = one := by
  unfold val_main_v8
  refine (concatenate_pair_apply_right (t := S850000) (s₁ := S800000) (s₂ := S50000) (0 : Fin S850000.rank) _ _ _ (ix1 (loopAt n)) rfl rfl (ix1 n)
    (fun b hb => absurd (Subsingleton.elim _ _) hb) (Nat.add_comm _ _)).trans ?_
  rw [val_main_v7_apply, val_main_cst_apply]

/-! ## A node's number as a 32-bit word -/

/-- A node's number, read signed, is the number. -/
theorem nodeWord_toInt (n : Fin 50000) : (BitVec.ofNat 32 n.val).toInt = (n.val : ℤ) := by
  have := n.isLt
  rw [BitVec.toInt_eq_toNat_cond, BitVec.toNat_ofNat]
  omega

/-- A node's number is not negative: the wrap leaves it. -/
theorem wrapIdx_nodeWord (n : Fin 50000) : wrapIdx (BitVec.ofNat 32 n.val) = BitVec.ofNat 32 n.val := by
  have h : IntOp.cmpi .slt (BitVec.ofNat 32 n.val) 0#32 = 0#1 := by
    unfold IntOp.cmpi
    have : (BitVec.ofNat 32 n.val).slt 0#32 = false := by
      rw [BitVec.slt, nodeWord_toInt]
      simp
    simp [this]
  unfold wrapIdx
  rw [h]
  rfl

/-- A node's number is in range: the clamp gives the node. -/
theorem clampIdx_nodeWord (n : Fin 50000) : clampIdx (BitVec.ofNat 32 n.val) = n := by
  refine Fin.ext ?_
  show min (BitVec.ofNat 32 n.val).toInt.toNat (50000 - 1) = n.val
  rw [nodeWord_toInt, Int.toNat_natCast]
  have := n.isLt
  omega

/-! ## Sums over the messages -/

/-- A sum over the messages is the sum over the edges plus the sum over the self-loops. -/
theorem sum_messages (f : Fin 850000 → EReal) :
    ∑ j, f j = ∑ e : Fin 800000, f (edgeAt e) + ∑ n : Fin 50000, f (loopAt n) :=
  Fin.sum_univ_add (M := EReal) (a := 800000) (b := 50000) f

/-- Of the self-loops, only node n's own is sent to n. -/
theorem sum_loops (g : Fin 50000 → EReal) (n : Fin 50000) :
    (∑ n' : Fin 50000, if (n'.val : ℤ) = (n.val : ℤ) then g n' else 0) = g n := by
  rw [Finset.sum_congr rfl (fun n' _ => if_congr
    (show (n'.val : ℤ) = (n.val : ℤ) ↔ n' = n from ⟨fun h => Fin.ext (by omega), fun h => by rw [h]⟩) rfl rfl),
    Finset.sum_ite_eq', if_pos (Finset.mem_univ n)]

/-! ## The index column of a scatter or gather, and the broadcasts along a row -/

theorem col10_idx (j : Fin 850000) : idx_main_v10 (ix2 j (0 : Fin 1)) = ix1 j :=
  funext fun a => match a with | ⟨0, _⟩ => rfl
theorem col21_idx (j : Fin 850000) : idx_main_v21 (ix2 j (0 : Fin 1)) = ix1 j :=
  funext fun a => match a with | ⟨0, _⟩ => rfl
theorem col29_idx (j : Fin 850000) : idx_main_v29 (ix2 j (0 : Fin 1)) = ix1 j :=
  funext fun a => match a with | ⟨0, _⟩ => rfl
theorem col38_idx (j : Fin 850000) : idx_main_v38 (ix2 j (0 : Fin 1)) = ix1 j :=
  funext fun a => match a with | ⟨0, _⟩ => rfl
theorem col44_idx (j : Fin 850000) : idx_main_v44 (ix2 j (0 : Fin 1)) = ix1 j :=
  funext fun a => match a with | ⟨0, _⟩ => rfl
/-- The normalization broadcast along a message's row is read at the message. -/
theorem row41_idx (j : Fin 850000) (q : Fin 64) : idx_main_v40 (idx_main_v41 (ix2 j q)) = ix1 j :=
  funext fun a => match a with | ⟨0, _⟩ => rfl
/-- The bias broadcast over the nodes is read at the channel. -/
theorem row47_idx (n : Fin 50000) (q : Fin 64) : idx_main_v46 (idx_main_v47 (ix2 n q)) = ix1 q :=
  funext fun a => match a with | ⟨0, _⟩ => rfl

/-! ## The degree and its inverse square root -/

/-- The first scatter-add over the ideal reals, with its dimension record spelt out. -/
theorem v11_eq : val_main_v11 (F := Ideal) x1 x2
    = Ideal.hostScatterAdd (vecScatterDims 50000 850000 Facts₀.scatter_S50000_S850000x1_S850000_n_0_0_1_wf)
        (val_main_v9 (F := Ideal)) (val_main_v10 (F := Ideal) x1) (val_main_v8 (F := Ideal) x2) := rfl

/-- The first scatter's index of message j is j's target word. -/
theorem scatterWord10 (j : Fin 850000) :
    val_main_v10 (F := Ideal) x1 (ix2 j (0 : Fin 1)) = val_main_v6 (F := Ideal) x1 (ix1 j) := by
  rw [val_main_v10_apply, col10_idx]

/-- The first scatter-add is the degree: the weights of the edges into n, and the self-loop's 1. -/
theorem degStage (n : Fin 50000) : val_main_v11 (F := Ideal) x1 x2 (ix1 n) = deg x1 x2 n := by
  rw [v11_eq, scatterAdd_vec_apply, sum_messages]
  simp only [scatterWord10, tgtWords_edge, tgtWords_loop, weights_edge, weights_loop, nodeWord_toInt]
  rw [sum_loops (fun _ => one) n, val_main_v9_apply, val_main_cst_0_apply,
    show FloatOps.ofBits (F := Ideal) FTy.f32 0#32 = (0 : EReal) from zero_eq, zero_add]
  unfold deg
  with_reducible rfl

/-- The select of the compare against +0.0 is the guarded inverse square root. -/
theorem dinvStage (n : Fin 50000) : val_main_v15 (F := Ideal) x1 x2 (ix1 n) = dinv x1 x2 n := by
  rw [val_main_v15_apply, val_main_v13_apply, val_main_v14_apply, val_main_v12_apply, val_main_cst_1_apply,
    val_main_call0_v1_apply, val_main_call0_v0_apply, val_main_cst_2_apply, degStage]
  unfold dinv dinvOf
  with_reducible rfl

/-! ## The gathers of the inverse square roots, and the normalization -/

/-- The two vector gathers and the row gather, with their dimension records spelt out. -/
theorem v22_eq : val_main_v22 (F := Ideal) x1 x2
    = Host.gather (vecGatherDims 50000 850000 Facts₀.gather_S50000_S850000x1_S850000_n_0_n_n_0_1_1_wf)
        (val_main_v15 (F := Ideal) x1 x2) (val_main_v21 (F := Ideal) x1) := rfl
theorem v30_eq : val_main_v30 (F := Ideal) x1 x2
    = Host.gather (vecGatherDims 50000 850000 Facts₀.gather_S50000_S850000x1_S850000_n_0_n_n_0_1_1_wf)
        (val_main_v15 (F := Ideal) x1 x2) (val_main_v29 (F := Ideal) x1) := rfl
theorem v39_eq : val_main_v39 (F := Ideal) x0 x1 x3
    = Host.gather (rowGatherDims 50000 64 850000 Facts₀.gather_S50000x64_S850000x1_S850000x64_1_0_n_n_0_1_164_wf)
        (val_main_v32 (F := Ideal) x0 x3) (val_main_v38 (F := Ideal) x1) := rfl

/-- The first gather's index of message j is j's source word, wrapped. -/
theorem gatherWord21 (j : Fin 850000) :
    val_main_v21 (F := Ideal) x1 (ix2 j (0 : Fin 1)) = wrapIdx (val_main_v5 (F := Ideal) x1 (ix1 j)) := by
  rw [val_main_v21_apply, col21_idx, val_main_v20_apply, val_main_v17_apply, val_main_v19_apply, val_main_v16_apply,
    val_main_v18_apply, val_main_c_apply, val_main_c_3_apply]
  unfold wrapIdx
  with_reducible rfl

/-- The second gather's index of message j is j's target word, wrapped. -/
theorem gatherWord29 (j : Fin 850000) :
    val_main_v29 (F := Ideal) x1 (ix2 j (0 : Fin 1)) = wrapIdx (val_main_v6 (F := Ideal) x1 (ix1 j)) := by
  rw [val_main_v29_apply, col29_idx, val_main_v28_apply, val_main_v25_apply, val_main_v27_apply, val_main_v24_apply,
    val_main_v26_apply, val_main_c_4_apply, val_main_c_5_apply]
  unfold wrapIdx
  with_reducible rfl

/-- The row gather's index of message j is j's source word, wrapped. -/
theorem gatherWord38 (j : Fin 850000) :
    val_main_v38 (F := Ideal) x1 (ix2 j (0 : Fin 1)) = wrapIdx (val_main_v5 (F := Ideal) x1 (ix1 j)) := by
  rw [val_main_v38_apply, col38_idx, val_main_v37_apply, val_main_v34_apply, val_main_v36_apply, val_main_v33_apply,
    val_main_v35_apply, val_main_c_6_apply, val_main_c_7_apply]
  unfold wrapIdx
  with_reducible rfl

/-- A vector gather out of 50000 entries reads at the clamp of the message's index word. -/
theorem gather_vec_clamp (wf : GatherDims.WF ⟨1, ![50000]⟩ ⟨2, ![850000, 1]⟩ ⟨1, ![850000]⟩ [] [0] [] [0] [] 1 ![1])
    (x : (⟨1, ![50000]⟩ : Shape).Idx → EReal) (idx : IVec ⟨2, ![850000, 1]⟩ 32) (j : Fin 850000) :
    Host.gather (vecGatherDims 50000 850000 wf) x idx (ix1 j) = x (ix1 (clampIdx (idx (ix2 j (0 : Fin 1))))) :=
  gather_vec_apply (by omega) wf x idx j

/-- A gather of rows out of 50000 reads the row at the clamp of the message's index word. -/
theorem gather_rows_clamp (wf : GatherDims.WF ⟨2, ![50000, 64]⟩ ⟨2, ![850000, 1]⟩ ⟨2, ![850000, 64]⟩ [1] [0] [] [0] [] 1 ![1, 64])
    (x : (⟨2, ![50000, 64]⟩ : Shape).Idx → EReal) (idx : IVec ⟨2, ![850000, 1]⟩ 32) (j : Fin 850000) (q : Fin 64) :
    Host.gather (rowGatherDims 50000 64 850000 wf) x idx (ix2 j q) = x (ix2 (clampIdx (idx (ix2 j (0 : Fin 1)))) q) :=
  gather_rows_apply (by omega) wf x idx j q

/-- The first gather reads the inverse square root at the message's source node. -/
theorem gatherSrcDinv (j : Fin 850000) : val_main_v22 (F := Ideal) x1 x2 (ix1 j)
    = dinv x1 x2 (clampIdx (wrapIdx (val_main_v5 (F := Ideal) x1 (ix1 j)))) := by
  rw [v22_eq, gather_vec_clamp, gatherWord21, dinvStage]

/-- The second gather reads the inverse square root at the message's target node. -/
theorem gatherTgtDinv (j : Fin 850000) : val_main_v30 (F := Ideal) x1 x2 (ix1 j)
    = dinv x1 x2 (clampIdx (wrapIdx (val_main_v6 (F := Ideal) x1 (ix1 j)))) := by
  rw [v30_eq, gather_vec_clamp, gatherWord29, dinvStage]

/-- At an edge the product of the three is the edge's normalization. -/
theorem normStage_edge (e : Fin 800000) : val_main_v31 (F := Ideal) x1 x2 (ix1 (edgeAt e)) = Cert.Gcn.norm x1 x2 e := by
  rw [val_main_v31_apply, val_main_v23_apply, gatherSrcDinv, gatherTgtDinv, srcWords_edge, tgtWords_edge, weights_edge,
    Ideal.mulf_def, Ideal.mulf_def]
  unfold Cert.Gcn.norm
  with_reducible rfl

/-- At node n's self-loop it is the node's inverse square root, twice, around the weight 1. -/
theorem normStage_loop (n : Fin 50000) :
    val_main_v31 (F := Ideal) x1 x2 (ix1 (loopAt n)) = dinv x1 x2 n * one * dinv x1 x2 n := by
  rw [val_main_v31_apply, val_main_v23_apply, gatherSrcDinv, gatherTgtDinv, srcWords_loop, tgtWords_loop, weights_loop,
    wrapIdx_nodeWord, clampIdx_nodeWord, Ideal.mulf_def, Ideal.mulf_def]

/-! ## The transformed features and the messages -/

theorem lidx_eq (n : Fin 50000) (q : Fin 64) (k : Fin 256) : lidx_main_v32 (ix2 n q) k = ix2 n k :=
  funext fun a => match a with | ⟨0, _⟩ => rfl | ⟨1, _⟩ => rfl
theorem ridx_eq (n : Fin 50000) (q : Fin 64) (k : Fin 256) : ridx_main_v32 (ix2 n q) k = ix2 k q :=
  funext fun a => match a with | ⟨0, _⟩ => rfl | ⟨1, _⟩ => rfl

/-- The contraction is the transformed feature. -/
theorem hStage (n : Fin 50000) (q : Fin 64) : val_main_v32 (F := Ideal) x0 x3 (ix2 n q) = h x0 x3 n q := by
  rw [val_main_v32_apply]
  simp only [lidx_eq, ridx_eq]
  unfold h
  with_reducible rfl

/-- The row gather reads the transformed features of the message's source node. -/
theorem gatherRows (j : Fin 850000) (q : Fin 64) : val_main_v39 (F := Ideal) x0 x1 x3 (ix2 j q)
    = h x0 x3 (clampIdx (wrapIdx (val_main_v5 (F := Ideal) x1 (ix1 j)))) q := by
  rw [v39_eq, gather_rows_clamp, gatherWord38, hStage]

/-- The normalization broadcast along a message's row. -/
theorem normRow (j : Fin 850000) (q : Fin 64) :
    val_main_v41 (F := Ideal) x1 x2 (ix2 j q) = val_main_v31 (F := Ideal) x1 x2 (ix1 j) := by
  rw [val_main_v41_apply, val_main_v40_apply, row41_idx]

/-- Message j at channel q: the source node's feature times the message's normalization. -/
theorem messageStage (j : Fin 850000) (q : Fin 64) : val_main_v42 (F := Ideal) x0 x1 x2 x3 (ix2 j q)
    = h x0 x3 (clampIdx (wrapIdx (val_main_v5 (F := Ideal) x1 (ix1 j)))) q * val_main_v31 (F := Ideal) x1 x2 (ix1 j) := by
  rw [val_main_v42_apply, gatherRows, normRow, Ideal.mulf_def]

/-! ## The aggregation and the output -/

/-- The second scatter-add over the ideal reals, with its dimension record spelt out. -/
theorem v45_eq : val_main_v45 (F := Ideal) x0 x1 x2 x3
    = Ideal.hostScatterAdd (rowScatterDims 50000 64 850000 Facts₀.scatter_S50000x64_S850000x1_S850000x64_1_0_0_1_wf)
        (val_main_v43 (F := Ideal)) (val_main_v44 (F := Ideal) x1) (val_main_v42 (F := Ideal) x0 x1 x2 x3) := rfl

/-- The second scatter's index of message j is j's target word. -/
theorem scatterWord44 (j : Fin 850000) :
    val_main_v44 (F := Ideal) x1 (ix2 j (0 : Fin 1)) = val_main_v6 (F := Ideal) x1 (ix1 j) := by
  rw [val_main_v44_apply, col44_idx]

/-- The second scatter-add: the edges' messages into n, and n's own self-loop message. -/
theorem aggStage (n : Fin 50000) (q : Fin 64) : val_main_v45 (F := Ideal) x0 x1 x2 x3 (ix2 n q)
    = agg x0 x1 x2 x3 n q + h x0 x3 n q * (dinv x1 x2 n * dinv x1 x2 n) := by
  rw [v45_eq, scatterAdd_rows_apply, sum_messages]
  simp only [scatterWord44, messageStage, tgtWords_edge, tgtWords_loop, srcWords_edge, srcWords_loop, normStage_edge,
    normStage_loop, nodeWord_toInt, wrapIdx_nodeWord, clampIdx_nodeWord]
  rw [sum_loops (fun n' => h x0 x3 n' q * (dinv x1 x2 n' * one * dinv x1 x2 n')) n, val_main_v43_apply,
    val_main_cst_8_apply, show FloatOps.ofBits (F := Ideal) FTy.f32 0#32 = (0 : EReal) from zero_eq, zero_add, one_eq,
    mul_one]
  unfold agg
  with_reducible rfl

/-- The bias added and the maximum with +0.0 taken: the layer's output. -/
theorem outStage (n : Fin 50000) (q : Fin 64) :
    val_main_v49 (F := Ideal) x0 x1 x2 x3 x4 (ix2 n q) = out x0 x1 x2 x3 x4 n q := by
  rw [val_main_v49_apply, val_main_v48_apply, aggStage, val_main_v47_apply, val_main_v46_apply, row47_idx,
    val_main_call1_v0_apply, val_main_call1_cst_apply, Ideal.maximumf_def, Ideal.addf_def,
    show FloatOps.ofBits (F := Ideal) FTy.f32 0#32 = (0 : EReal) from zero_eq]
  unfold out
  with_reducible rfl

end Stages

/-- The reference program's result is the graph convolution of its five arguments. -/
theorem ref_eq (x0 : (⟨Cert.ReferenceIdeal.S50000x256, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S256x64, .f32⟩ : BufTy).Contents (Elt Ideal))
    (x4 : (⟨Cert.ReferenceIdeal.S64, .f32⟩ : BufTy).Contents (Elt Ideal)) :
    Cert.ReferenceIdeal.Read.val_main_v49 (F := Ideal) x0 x1 x2 x3 x4 = Cert.Gcn.G x0 x1 x2 x3 x4 := by
  funext i
  obtain ⟨n, q, rfl⟩ : ∃ (n : Fin 50000) (q : Fin 64), i = ix2 n q := ⟨i 0, i 1, eq_ix2 i⟩
  rw [outStage, G_apply]

end Cert.ReferenceIdeal.RefValue

end
-- ==== Proof.lean ====
/-
  The certificate of a graph-convolution layer (symmetric normalization with self-loops, a bias and a ReLU): a kernel
  program of two TensorCore kernels among host operations against a host-only reference.

  The kernel program computes the degree as the scatter-add of the edge weights plus 1, multiplies the features by the
  weight matrix in its first kernel (which also scales the product by the squared inverse root of the degree: the
  self-loop's message), gathers, scales and scatter-adds the edge messages on the host, and adds the self-loop term and
  the bias under a ReLU in its second kernel, on arrays laid out two nodes to a row. The reference appends the 50000
  self-loops to the 800000 edges as edges of weight 1 and runs one scatter-add over all 850000.

  Over the extended reals both results are ONE function of the argument arrays (Spec): the appended self-loops split
  off the reference's two scatter-adds as their own summands — 1 in the degree, h n q * (dinv n * 1 * dinv n) in the
  aggregate — which are the kernel program's "+ 1" and its first kernel's scaled product. Only the commutative-monoid
  laws of + and * on the extended reals are used (no distributivity), so the finiteness of the inputs is never opened.
  The three frames are the generated frame proofs and the reference's generated run; the idealization's ledger is empty.
-/
import proofs.«418429_j49297634624086_3_alg».proof.Defs
import proofs.«418429_j49297634624086_3_alg».proof.Proof.Gen.Kernel
import proofs.«418429_j49297634624086_3_alg».proof.Proof.Gen.Kernel.Frame
import proofs.«418429_j49297634624086_3_alg».proof.Proof.Gen.KernelIdeal
import proofs.«418429_j49297634624086_3_alg».proof.Proof.Gen.KernelIdeal.Frame
import proofs.«418429_j49297634624086_3_alg».proof.Proof.Gen.ReferenceIdeal
import proofs.«418429_j49297634624086_3_alg».proof.Proof.Gen.ReferenceIdeal.Run
import proofs.«418429_j49297634624086_3_alg».proof.Proof.Gen.ReferenceIdeal.Read
import proofs.«418429_j49297634624086_3_alg».proof.Proof.Gen.Pre_finite_inputs
import proofs.«418429_j49297634624086_3_alg».proof.Proof.Spec
import proofs.«418429_j49297634624086_3_alg».proof.Proof.KernelRun
import proofs.«418429_j49297634624086_3_alg».proof.Proof.KernelHost
import proofs.«418429_j49297634624086_3_alg».proof.Proof.RefValue

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the specification's function of the (agreeing) argument arrays in their result
    array: the kernel program by its run read stretch by stretch and region by region, the reference by its generated
    run and the reading of its stages. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Gcn.G (Cert.KernelIdeal.HostValue.X m c) (Cert.KernelIdeal.HostValue.EI m c)
    (Cert.KernelIdeal.HostValue.EW m c) (Cert.KernelIdeal.HostValue.WT m c) (Cert.KernelIdeal.HostValue.B m c), ?_, ?_⟩
  · exact (θ_run Cert.KernelIdeal.defs _ _).mono
      (fun r h c => ⟨(h c).1.trans (Cert.KernelIdeal.HostValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v49_eq, Cert.ReferenceIdeal.RefValue.ref_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
